-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S200x50257 : Shape := ⟨2, ![200, 50257]⟩
abbrev S200 : Shape := ⟨1, ![200]⟩
abbrev S50257x200 : Shape := ⟨2, ![50257, 200]⟩
abbrev S50257 : Shape := ⟨1, ![50257]⟩
abbrev S_ : Shape := ⟨0, ![]⟩

class Facts : Prop where
  bcast_S_S200x50257 : S_.BroadcastsInDim S200x50257 (![] : Fin 0 → Fin S200x50257.rank)
  reducesTo_S200x50257_S_d0_1 : S200x50257.ReducesTo [0, 1] S_
  h_S_ : 0 < S_.numel
  bcast_S_S200 : S_.BroadcastsInDim S200 (![] : Fin 0 → Fin S200.rank)
  reducesTo_S200_S_d0 : S200.ReducesTo [0] S_
  bcast_S_S50257x200 : S_.BroadcastsInDim S50257x200 (![] : Fin 0 → Fin S50257x200.rank)
  reducesTo_S50257x200_S_d0_1 : S50257x200.ReducesTo [0, 1] S_
  bcast_S_S50257 : S_.BroadcastsInDim S50257 (![] : Fin 0 → Fin S50257.rank)
  reducesTo_S50257_S_d0 : S50257.ReducesTo [0] S_

variable [Facts]

def fn_part1 {F : FTy → Type} [FloatOps F] (main_v13 : IVec S_ 1) (main_v16 : IVec S50257 1) : IVec S_ 1 :=
  let main_c_5 : IVec S_ 1 := constantI S_ 1 1#1
  let main_v17 : IVec S_ 1 := (fun x v => Host.reduce IntOp.andi x v reducesTo_S50257_S_d0 h_S_) main_v16 main_c_5
  let main_v18 : IVec S_ 1 := andi main_v13 main_v17
  main_v18

def fn {F : FTy → Type} [FloatOps F] (main_arg0 : IVec S4096 32) (main_arg1 : FVec F S200x50257 .f32) (main_arg2 : FVec F S200 .f32) (main_arg3 : FVec F S50257x200 .f32) (main_arg4 : FVec F S50257 .f32) : IVec S_ 1 :=
  let main_v0 : FVec F S200x50257 .f32 := Host.absf main_arg1
  let main_cst : FVec F S_ .f32 := constant S_ .f32 0x7F800000#32
  let main_v1 : FVec F S200x50257 .f32 := broadcastInDim S200x50257 ![] bcast_S_S200x50257 main_cst
  let main_v2 : IVec S200x50257 1 := cmpf .olt main_v0 main_v1
  let main_c : IVec S_ 1 := constantI S_ 1 1#1
  let main_v3 : IVec S_ 1 := (fun x v => Host.reduce IntOp.andi x v reducesTo_S200x50257_S_d0_1 h_S_) main_v2 main_c
  let main_v4 : FVec F S200 .f32 := Host.absf main_arg2
  let main_cst_0 : FVec F S_ .f32 := constant S_ .f32 0x7F800000#32
  let main_v5 : FVec F S200 .f32 := broadcastInDim S200 ![] bcast_S_S200 main_cst_0
  let main_v6 : IVec S200 1 := cmpf .olt main_v4 main_v5
  let main_c_1 : IVec S_ 1 := constantI S_ 1 1#1
  let main_v7 : IVec S_ 1 := (fun x v => Host.reduce IntOp.andi x v reducesTo_S200_S_d0 h_S_) main_v6 main_c_1
  let main_v8 : IVec S_ 1 := andi main_v3 main_v7
  let main_v9 : FVec F S50257x200 .f32 := Host.absf main_arg3
  let main_cst_2 : FVec F S_ .f32 := constant S_ .f32 0x7F800000#32
  let main_v10 : FVec F S50257x200 .f32 := broadcastInDim S50257x200 ![] bcast_S_S50257x200 main_cst_2
  let main_v11 : IVec S50257x200 1 := cmpf .olt main_v9 main_v10
  let main_c_3 : IVec S_ 1 := constantI S_ 1 1#1
  let main_v12 : IVec S_ 1 := (fun x v => Host.reduce IntOp.andi x v reducesTo_S50257x200_S_d0_1 h_S_) main_v11 main_c_3
  let main_v13 : IVec S_ 1 := andi main_v8 main_v12
  let main_v14 : FVec F S50257 .f32 := Host.absf main_arg4
  let main_cst_4 : FVec F S_ .f32 := constant S_ .f32 0x7F800000#32
  let main_v15 : FVec F S50257 .f32 := broadcastInDim S50257 ![] bcast_S_S50257 main_cst_4
  let main_v16 : IVec S50257 1 := cmpf .olt main_v14 main_v15
  fn_part1 (F := F) main_v13 main_v16
-- ==== Kernel.lean ====
abbrev S4096 : Shape := ⟨1, ![4096]⟩
abbrev S200x50257 : Shape := ⟨2, ![200, 50257]⟩
abbrev S200 : Shape := ⟨1, ![200]⟩
abbrev S50257x200 : Shape := ⟨2, ![50257, 200]⟩
abbrev S50257 : Shape := ⟨1, ![50257]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S200x4096 : Shape := ⟨2, ![200, 4096]⟩
abbrev S4096x200 : Shape := ⟨2, ![4096, 200]⟩
abbrev S1x200 : Shape := ⟨2, ![1, 200]⟩
abbrev S4096x256 : Shape := ⟨2, ![4096, 256]⟩
abbrev S256x50688 : Shape := ⟨2, ![256, 50688]⟩
abbrev S2 : Shape := ⟨1, ![2]⟩
abbrev S4096x50257 : Shape := ⟨2, ![4096, 50257]⟩
abbrev S256x512 : Shape := ⟨2, ![256, 512]⟩
abbrev S4096x512 : Shape := ⟨2, ![4096, 512]⟩
abbrev S512 : Shape := ⟨1, ![512]⟩
abbrev S1x512 : Shape := ⟨2, ![1, 512]⟩

abbrev nBuf : Space → Nat
  | .hbm => 61
  | .vmem => 5
  | .smem => 0
  | _ => 0

abbrev bufTy : (tb : Table) → Fin (tcTables nBuf tb) → BufTy
  | .hbm, ⟨0, _⟩ => ⟨S4096, .i32⟩
  | .hbm, ⟨1, _⟩ => ⟨S200x50257, .f32⟩
  | .hbm, ⟨2, _⟩ => ⟨S200, .f32⟩
  | .hbm, ⟨3, _⟩ => ⟨S50257x200, .f32⟩
  | .hbm, ⟨4, _⟩ => ⟨S50257, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S200x4096, .f32⟩
  | .hbm, ⟨24, _⟩ => ⟨S200x4096, .i1⟩
  | .hbm, ⟨25, _⟩ => ⟨S_, .f32⟩
  | .hbm, ⟨26, _⟩ => ⟨S200x4096, .f32⟩
  | .hbm, ⟨27, _⟩ => ⟨S200x4096, .f32⟩
  | .hbm, ⟨28, _⟩ => ⟨S4096x200, .f32⟩
  | .hbm, ⟨29, _⟩ => ⟨S1x200, .f32⟩
  | .hbm, ⟨30, _⟩ => ⟨S4096x200, .f32⟩
  | .hbm, ⟨31, _⟩ => ⟨S4096x200, .f32⟩
  | .hbm, ⟨32, _⟩ => ⟨S_, .f32⟩
  | .hbm, ⟨33, _⟩ => ⟨S4096x256, .f32⟩
  | .hbm, ⟨34, _⟩ => ⟨S_, .i32⟩
  | .hbm, ⟨35, _⟩ => ⟨S1, .i32⟩
  | .hbm, ⟨36, _⟩ => ⟨S4096x256, .f32⟩
  | .hbm, ⟨37, _⟩ => ⟨S_, .i32⟩
  | .hbm, ⟨38, _⟩ => ⟨S1, .i32⟩
  | .hbm, ⟨39, _⟩ => ⟨S_, .f32⟩
  | .hbm, ⟨40, _⟩ => ⟨S4096, .f32⟩
  | .hbm, ⟨41, _⟩ => ⟨S4096x256, .f32⟩
  | .hbm, ⟨42, _⟩ => ⟨S4096x256, .bf16⟩
  | .hbm, ⟨43, _⟩ => ⟨S_, .bf16⟩
  | .hbm, ⟨44, _⟩ => ⟨S256x50688, .bf16⟩
  | .hbm, ⟨45, _⟩ => ⟨S200x50257, .f32⟩
  | .hbm, ⟨46, _⟩ => ⟨S200x50257, .bf16⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S256x50688, .bf16⟩
  | .hbm, ⟨53, _⟩ => ⟨S50257, .bf16⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S256x50688, .bf16⟩
  | .hbm, ⟨60, _⟩ => ⟨S4096x50257, .f32⟩
  | .local _ .vmem, ⟨0, _⟩ => ⟨S4096x256, .bf16⟩
  | .local _ .vmem, ⟨1, _⟩ => ⟨S256x512, .bf16⟩
  | .local _ .vmem, ⟨2, _⟩ => ⟨S256x512, .bf16⟩
  | .local _ .vmem, ⟨3, _⟩ => ⟨S4096x512, .f32⟩
  | .local _ .vmem, ⟨4, _⟩ => ⟨S4096x512, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_c_0 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_c_3 : Ref sig .tc := ⟨.hbm, 47, rfl⟩
abbrev main_v15 : Ref sig .tc := ⟨.hbm, 48, rfl⟩
abbrev main_c_4 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_5 : Ref sig .tc := ⟨.hbm, 54, rfl⟩
abbrev main_v20 : Ref sig .tc := ⟨.hbm, 55, rfl⟩
abbrev main_c_6 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![99], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S200x4096_1 : S4096.BroadcastsInDim S200x4096 (![1] : Fin 1 → Fin S200x4096.rank)
  bcast_S_S200x4096 : S_.BroadcastsInDim S200x4096 (![] : Fin 0 → Fin S200x4096.rank)
  transposes_S200x4096_S4096x200_1_0 : S200x4096.Transposes [1, 0] S4096x200
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S_S4096x256 : S_.BroadcastsInDim S4096x256 (![] : Fin 0 → Fin S4096x256.rank)
  bcast_S_S1 : S_.BroadcastsInDim S1 (![] : Fin 0 → Fin S1.rank)
  bitsLt_bf16_f32 : FTy.bits .bf16 < FTy.bits .f32
  bcast_S_S256x50688 : S_.BroadcastsInDim S256x50688 (![] : Fin 0 → Fin S256x50688.rank)
  transposes_S50257x200_S200x50257_1_0 : S50257x200.Transposes [1, 0] S200x50257
  concatenates_S1_S1_S2_d0 : Shape.Concatenates [S1, S1] S2 0
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S4096x512_S512 : S4096x512.Reduces [0] S512
  shapeCasts_S512_S1x512 : S512.ShapeCasts S1x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  gather_S200x50257_S4096x1_S200x4096_0_1_n_n_1_1_2001_wf : GatherDims.WF S200x50257 S4096x1 S200x4096 [0] [1] [] [1] [] 1 ![200, 1]
  scatter_S4096x256_S1_S4096x200_01_n_1_0_wf : ScatterDims.WF S4096x256 S1 S4096x200 [0, 1] [] [1] 0
  scatter_S4096x256_S1_S4096_0_1_1_0_wf : ScatterDims.WF S4096x256 S1 S4096 [0] [1] [1] 0
  scatter_S256x50688_S2_S200x50257_01_n_01_0_wf : ScatterDims.WF S256x50688 S2 S200x50257 [0, 1] [] [0, 1] 0
  scatter_S256x50688_S2_S50257_0_0_01_0_wf : ScatterDims.WF S256x50688 S2 S50257 [0] [0] [0, 1] 0
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .bf16 = 32 ∨ (Rect.block (s := S4096x256) S4096x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x50688.size a
  hwx0_1 : ∀ i : grid0.Coords, EltTy.bits .bf16 = 32 ∨ (Rect.block (s := S256x50688) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x512.size a < S4096x50257.size a
  hwx0_2 : ∀ i : grid0.Coords, EltTy.bits .f32 = 32 ∨ (Rect.unit (s := S4096x50257) (fun a => cc0_transform_2 i a * S4096x512.size a) (fun a => (Pipeline.Clip.of (cc0_transform_2 i a) (S4096x512.size a) (S4096x50257.size a)).extent (S4096x512.size a)) fun a => Pipeline.Clip.inb (Pipeline.Clip.ok_of (hstart0_2 i a))).WholeWords (EltTy.packing .f32)
  hwxs0_2 : ∀ i : grid0.Coords, EltTy.bits .f32 = 32 ∨ (Rect.unit (s := S4096x512) (fun _ => 0) (fun a => (Pipeline.Clip.of (cc0_transform_2 i a) (S4096x512.size a) (S4096x50257.size a)).extent (S4096x512.size a)) fun a => (Nat.zero_add _).trans_le (Pipeline.Clip.extent_le (Pipeline.Clip.ok_of (hstart0_2 i a)))).WholeWords (EltTy.packing .f32)

variable [Facts₀]

def gather_S200x50257_S4096x1_S200x4096_0_1_n_n_1_1_2001 : GatherDims S200x50257 S4096x1 S200x4096 where
  offsetDims := [0]
  collapsedSliceDims := [1]
  operandBatchingDims := []
  startIndicesBatchingDims := []
  startIndexMap := [1]
  indexVectorDim := 1
  sliceSizes := ![200, 1]
  wf := gather_S200x50257_S4096x1_S200x4096_0_1_n_n_1_1_2001_wf
def scatter_S4096x256_S1_S4096x200_01_n_1_0 : ScatterDims S4096x256 S1 S4096x200 where
  updateWindowDims := [0, 1]
  insertedWindowDims := []
  scatterDimsToOperandDims := [1]
  indexVectorDim := 0
  wf := scatter_S4096x256_S1_S4096x200_01_n_1_0_wf
def scatter_S4096x256_S1_S4096_0_1_1_0 : ScatterDims S4096x256 S1 S4096 where
  updateWindowDims := [0]
  insertedWindowDims := [1]
  scatterDimsToOperandDims := [1]
  indexVectorDim := 0
  wf := scatter_S4096x256_S1_S4096_0_1_1_0_wf
def scatter_S256x50688_S2_S200x50257_01_n_01_0 : ScatterDims S256x50688 S2 S200x50257 where
  updateWindowDims := [0, 1]
  insertedWindowDims := []
  scatterDimsToOperandDims := [0, 1]
  indexVectorDim := 0
  wf := scatter_S256x50688_S2_S200x50257_01_n_01_0_wf
def scatter_S256x50688_S2_S50257_0_0_01_0 : ScatterDims S256x50688 S2 S50257 where
  updateWindowDims := [0]
  insertedWindowDims := [0]
  scatterDimsToOperandDims := [0, 1]
  indexVectorDim := 0
  wf := scatter_S256x50688_S2_S50257_0_0_01_0_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_v11) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v23) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v24) S4096x512.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096 : Shape := ⟨1, ![4096]⟩
abbrev S200x50257 : Shape := ⟨2, ![200, 50257]⟩
abbrev S200 : Shape := ⟨1, ![200]⟩
abbrev S50257x200 : Shape := ⟨2, ![50257, 200]⟩
abbrev S50257 : Shape := ⟨1, ![50257]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S200x4096 : Shape := ⟨2, ![200, 4096]⟩
abbrev S4096x200 : Shape := ⟨2, ![4096, 200]⟩
abbrev S1x200 : Shape := ⟨2, ![1, 200]⟩
abbrev S4096x50257 : Shape := ⟨2, ![4096, 50257]⟩
abbrev S1x50257 : Shape := ⟨2, ![1, 50257]⟩

abbrev nBuf : Space → Nat
  | .hbm => 50
  | .vmem => 0
  | .smem => 0
  | _ => 0

abbrev bufTy : (tb : Table) → Fin (tcTables nBuf tb) → BufTy
  | .hbm, ⟨0, _⟩ => ⟨S4096, .i32⟩
  | .hbm, ⟨1, _⟩ => ⟨S200x50257, .f32⟩
  | .hbm, ⟨2, _⟩ => ⟨S200, .f32⟩
  | .hbm, ⟨3, _⟩ => ⟨S50257x200, .f32⟩
  | .hbm, ⟨4, _⟩ => ⟨S50257, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S200x4096, .f32⟩
  | .hbm, ⟨24, _⟩ => ⟨S200x4096, .i1⟩
  | .hbm, ⟨25, _⟩ => ⟨S_, .f32⟩
  | .hbm, ⟨26, _⟩ => ⟨S200x4096, .f32⟩
  | .hbm, ⟨27, _⟩ => ⟨S200x4096, .f32⟩
  | .hbm, ⟨28, _⟩ => ⟨S4096x200, .f32⟩
  | .hbm, ⟨29, _⟩ => ⟨S1x200, .f32⟩
  | .hbm, ⟨30, _⟩ => ⟨S4096x200, .f32⟩
  | .hbm, ⟨31, _⟩ => ⟨S4096x200, .f32⟩
  | .hbm, ⟨32, _⟩ => ⟨S4096x50257, .f32⟩
  | .hbm, ⟨33, _⟩ => ⟨S1x50257, .f32⟩
  | .hbm, ⟨34, _⟩ => ⟨S4096x50257, .f32⟩
  | .hbm, ⟨35, _⟩ => ⟨S4096x50257, .f32⟩
  | .hbm, ⟨36, _⟩ => ⟨S_, .f32⟩
  | .hbm, ⟨37, _⟩ => ⟨S50257, .f32⟩
  | .hbm, ⟨38, _⟩ => ⟨S_, .f32⟩
  | .hbm, ⟨39, _⟩ => ⟨S50257, .f32⟩
  | .hbm, ⟨40, _⟩ => ⟨S50257, .f32⟩
  | .hbm, ⟨41, _⟩ => ⟨S1x50257, .f32⟩
  | .hbm, ⟨42, _⟩ => ⟨S4096x50257, .f32⟩
  | .hbm, ⟨43, _⟩ => ⟨S4096x50257, .f32⟩
  | .hbm, ⟨44, _⟩ => ⟨S4096x50257, .f32⟩
  | .hbm, ⟨45, _⟩ => ⟨S_, .f32⟩
  | .hbm, ⟨46, _⟩ => ⟨S50257, .f32⟩
  | .hbm, ⟨47, _⟩ => ⟨S1x50257, .f32⟩
  | .hbm, ⟨48, _⟩ => ⟨S4096x50257, .f32⟩
  | .hbm, ⟨49, _⟩ => ⟨S4096x50257, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S200x4096_1 : S4096.BroadcastsInDim S200x4096 (![1] : Fin 1 → Fin S200x4096.rank)
  bcast_S_S200x4096 : S_.BroadcastsInDim S200x4096 (![] : Fin 0 → Fin S200x4096.rank)
  transposes_S200x4096_S4096x200_1_0 : S200x4096.Transposes [1, 0] S4096x200
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S50257_S1x50257_1 : S50257.BroadcastsInDim S1x50257 (![1] : Fin 1 → Fin S1x50257.rank)
  bcast_S1x50257_S4096x50257_0_1 : S1x50257.BroadcastsInDim S4096x50257 (![0, 1] : Fin 2 → Fin S4096x50257.rank)
  reducesTo_S4096x50257_S50257_d0 : S4096x50257.ReducesTo [0] S50257
  bcast_S_S50257 : S_.BroadcastsInDim S50257 (![] : Fin 0 → Fin S50257.rank)
  gather_S200x50257_S4096x1_S200x4096_0_1_n_n_1_1_2001_wf : GatherDims.WF S200x50257 S4096x1 S200x4096 [0] [1] [] [1] [] 1 ![200, 1]
  dot_S4096x200_S50257x200_S4096x50257_1_1_0_0_n_n_wf : DotDims.WF S4096x200 S50257x200 S4096x50257 [1] [1] [0] [0] [] []

variable [Facts₀]

def gather_S200x50257_S4096x1_S200x4096_0_1_n_n_1_1_2001 : GatherDims S200x50257 S4096x1 S200x4096 where
  offsetDims := [0]
  collapsedSliceDims := [1]
  operandBatchingDims := []
  startIndicesBatchingDims := []
  startIndexMap := [1]
  indexVectorDim := 1
  sliceSizes := ![200, 1]
  wf := gather_S200x50257_S4096x1_S200x4096_0_1_n_n_1_1_2001_wf
def dot_S4096x200_S50257x200_S4096x50257_1_1_0_0_n_n : DotDims S4096x200 S50257x200 S4096x50257 where
  lhsContracting := [1]
  rhsContracting := [1]
  lhsNonContracting := [0]
  rhsNonContracting := [0]
  lhsBatch := []
  rhsBatch := []
  wf := dot_S4096x200_S50257x200_S4096x50257_1_1_0_0_n_n_wf

class Facts : Prop extends Facts₀ where

variable [Facts]
-- ==== Proof.ColSoftmax.lean ====
/-
  The mathematics shared by the two programs, over the extended reals.

  A COLUMN SOFTMAX: for logits `l : Fin N → EReal` down one column, entry `p` is
  `exp (l p - M) / ∑ p', exp (l p' - M)` with `M` the column's maximum, folded from -∞.

  A PADDED DOT PRODUCT: a row of 200 entries extended by a one and 55 zeros, against a column of 200
  entries extended by a bias and 55 zeros, is the dot product of the 200 plus the bias.
-/
import Idealize.ShloMosaic.PureOps.Ideal
import Idealize.ShloMosaic.PureOps.Ideal.Laws

noncomputable section

namespace Cert.ColSoftmax

open Idealize.ShloMosaic

/-- The maximum of a column of logits, folded from the f32 word of -∞. -/
def colMax {N : Nat} (l : Fin N → EReal) : EReal :=
  (Finset.univ : Finset (Fin N)).fold max (Ideal.ofBits .f32 0xFF800000#32) l

/-- Entry `p` of the softmax of a column of logits. -/
def colSoftmax {N : Nat} (l : Fin N → EReal) (p : Fin N) : EReal :=
  Ideal.div (Ideal.exp (l p - colMax l)) (∑ p' : Fin N, Ideal.exp (l p' - colMax l))

/-- The f32 word 0xFF800000 is -∞, the least extended real: a maximum with it is the other operand. -/
theorem max_bot_left (y : EReal) : max (Ideal.ofBits .f32 0xFF800000#32) y = y := by
  simp [Ideal.ofBits, Ideal.ieee]

/-- A sum over 256 indices splits into the first 200, index 200, and the last 55. -/
theorem sum_256_split (f : Fin 256 → EReal) :
    ∑ k : Fin 256, f k
      = (∑ k : Fin 200, f ⟨k.val, by omega⟩) + (f ⟨200, by omega⟩ + ∑ j : Fin 55, f ⟨201 + j.val, by omega⟩) := by
  have h1 := Fin.sum_univ_add (a := 200) (b := 56) (fun k : Fin (200 + 56) => f ⟨k.val, k.isLt⟩)
  have h2 := Fin.sum_univ_succ (n := 55) (fun j : Fin (55 + 1) => f ⟨200 + j.val, by omega⟩)
  refine (h1.trans ?_)
  refine congrArg₂ (· + ·) rfl ?_
  refine (Eq.trans ?_ h2).trans ?_
  · rfl
  · refine congrArg₂ (· + ·) rfl ?_
    refine Finset.sum_congr rfl fun j _ => ?_
    exact congrArg f (Fin.ext (by simp [Fin.val_succ]; omega))

/-- The padded dot product: the row is `e` on the first 200 indices, one at index 200 and zero after; the column is `w`
    on the first 200, the bias `b` at index 200 and zero after. On the extended reals one times the bias is the bias and
    zero times zero is zero, so the sum over the 256 is the dot product of the 200 plus the bias. -/
theorem padded_dot (e w : Fin 200 → EReal) (b : EReal) (ep bp : Fin 256 → EReal)
    (hep : ∀ k : Fin 256, ep k = if h : k.val < 200 then e ⟨k.val, h⟩ else if k.val = 200 then 1 else 0)
    (hbp : ∀ k : Fin 256, bp k = if h : k.val < 200 then w ⟨k.val, h⟩ else if k.val = 200 then b else 0) :
    ∑ k : Fin 256, ep k * bp k = (∑ k : Fin 200, e k * w k) + b := by
  rw [sum_256_split]
  have h0 : ∀ k : Fin 200, ep ⟨k.val, by omega⟩ * bp ⟨k.val, by omega⟩ = e k * w k := fun k => by
    rw [hep, hbp, dif_pos k.isLt, dif_pos k.isLt]
  have h1 : ep ⟨200, by omega⟩ * bp ⟨200, by omega⟩ = b := by
    rw [hep, hbp, dif_neg (show ¬((200 : Nat) < 200) by omega), dif_neg (show ¬((200 : Nat) < 200) by omega), if_pos rfl, if_pos rfl, one_mul]
  have h2 : ∀ j : Fin 55, ep ⟨201 + j.val, by omega⟩ * bp ⟨201 + j.val, by omega⟩ = 0 := fun j => by
    rw [hep, dif_neg (show ¬(201 + j.val < 200) by omega), if_neg (show ¬(201 + j.val = 200) by omega), zero_mul]
  rw [Finset.sum_congr rfl (fun k _ => h0 k), h1, Finset.sum_congr rfl (fun j _ => h2 j), Finset.sum_const_zero, add_zero]

end Cert.ColSoftmax

end
-- ==== Proof.KernelPayload.lean ====
/-
  What the kernel body stores, read at one index.

  The body multiplies its [4096, 256] block of padded embedding rows by a [256, 512] block of padded weights, and
  normalises every one of the 512 columns of the product by a softmax down its 4096 rows. At row `p` and column `q`
  the stored value is the column softmax (Proof/ColSoftmax.lean) of the logits
  `fun p' => ∑ k : Fin 256, x0 (p', k) * x1 (k, q)`.
-/
import proofs.«427122_j2345052144357_3_alg».proof.Proof.Gen.KernelIdeal.Skeleton
import proofs.«427122_j2345052144357_3_alg».proof.Proof.ColSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.ColSoftmax

/-! ## The matrix product at an index -/

theorem lhs_axis0 (i : S4096x512.Idx) (q : dot_S4096x256_S256x512_S4096x512_1_0_0_1_n_n.contr.Idx) :
    (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide),
    dif_pos (show (0 : Fin S4096x256.rank) ∈ dot_S4096x256_S256x512_S4096x512_1_0_0_1_n_n.lhsNonContracting by decide)]
  rfl

theorem lhs_axis1 (i : S4096x512.Idx) (q : dot_S4096x256_S256x512_S4096x512_1_0_0_1_n_n.contr.Idx) :
    (dot_S4096x256_S256x512_S4096x512_1_0_0_1_n_n.lhsIdx i q 1).val = (q ⟨0, by decide⟩).val :=
  dot_S4096x256_S256x512_S4096x512_1_0_0_1_n_n.lhsIdx_val_of_single rfl i q

theorem rhs_axis0 (i : S4096x512.Idx) (q : dot_S4096x256_S256x512_S4096x512_1_0_0_1_n_n.contr.Idx) :
    (dot_S4096x256_S256x512_S4096x512_1_0_0_1_n_n.rhsIdx i q 0).val = (q ⟨0, by decide⟩).val :=
  dot_S4096x256_S256x512_S4096x512_1_0_0_1_n_n.rhsIdx_val_of_single rfl i q

theorem rhs_axis1 (i : S4096x512.Idx) (q : dot_S4096x256_S256x512_S4096x512_1_0_0_1_n_n.contr.Idx) :
    (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide),
    dif_pos (show (1 : Fin S256x512.rank) ∈ dot_S4096x256_S256x512_S4096x512_1_0_0_1_n_n.rhsNonContracting by decide)]
  rfl

/-- The product into a zero accumulator, at row `p` and column `q`: the sum over the 256 contracted indices of the
    left operand's row `p` times the right operand's column `q`. -/
theorem logits_apply (x0 : FVec Ideal S4096x256 .bf16) (x1 : FVec Ideal S256x512 .bf16) (p : Fin 4096) (q : Fin 512) :
    matmul dot_S4096x256_S256x512_S4096x512_1_0_0_1_n_n none x0 x1 (constant S4096x512 .f32 0x00000000#32) (ix2 p q)
      = ∑ k : Fin 256, x0 (ix2 p k) * x1 (ix2 k q) := by
  simp only [matmul]
  rw [Ideal.matmul_constant_zero_apply,
    ← Equiv.sum_comp (contrEquiv1 dot_S4096x256_S256x512_S4096x512_1_0_0_1_n_n 256 rfl rfl).symm]
  refine Finset.sum_congr rfl fun k _ => ?_
  have hk := contrEquiv1_symm_val dot_S4096x256_S256x512_S4096x512_1_0_0_1_n_n 256 rfl rfl k
  have el : dot_S4096x256_S256x512_S4096x512_1_0_0_1_n_n.lhsIdx (ix2 p q)
      ((contrEquiv1 dot_S4096x256_S256x512_S4096x512_1_0_0_1_n_n 256 rfl rfl).symm k) = ix2 p k :=
    funext fun a => Fin.ext (by
      match a with
      | ⟨0, _⟩ => exact lhs_axis0 _ _
      | ⟨1, _⟩ => exact (lhs_axis1 _ _).trans hk)
  have er : dot_S4096x256_S256x512_S4096x512_1_0_0_1_n_n.rhsIdx (ix2 p q)
      ((contrEquiv1 dot_S4096x256_S256x512_S4096x512_1_0_0_1_n_n 256 rfl rfl).symm k) = ix2 k q :=
    funext fun a => Fin.ext (by
      match a with
      | ⟨0, _⟩ => exact (rhs_axis0 _ _).trans hk
      | ⟨1, _⟩ => exact rhs_axis1 _ _)
  rw [el, er]

/-! ## The softmax down the rows, at an index -/

/-- A vector of 512 column values laid out as one row and repeated down the 4096 rows. -/
def downRows (v : FVec Ideal S512 .f32) : FVec Ideal S4096x512 .f32 :=
  broadcastTo S4096x512 (shapeCast S1x512 v shapeCasts_S512_S1x512) broadcasts_S1x512_S4096x512

theorem downRows_apply (v : FVec Ideal S512 .f32) (p : Fin 4096) (q : Fin 512) : downRows v (ix2 p q) = v (ix1 q) := by
  unfold downRows
  rw [broadcastTo_1b_ab_apply, shapeCast_a_1a_apply]

/-- A column's index with row `k` put back is (k, q). -/
theorem lift_rows (h : S4096x512.Reduces [0] S512) (q : Fin 512) (k : Fin (S4096x512.size 0)) :
    h.lift (ix1 q) k = ix2 (⟨k.val, k.isLt⟩ : Fin 4096) q := by
  funext c; apply Fin.ext
  fin_cases c <;> rfl

/-- The maximum down the rows. -/
def rowsMax (L : FVec Ideal S4096x512 .f32) : FVec Ideal S512 .f32 :=
  multiReduction .maximumf [0] S512 L 0xFF800000#32 reduces_S4096x512_S512 (.inl rfl) rfl

theorem rowsMax_apply (L : FVec Ideal S4096x512 .f32) (q : Fin 512) :
    rowsMax L (ix1 q) = colMax (fun p' : Fin 4096 => L (ix2 p' q)) := by
  unfold rowsMax colMax
  refine (Ideal.multiReduction_maximumf_single L _ reduces_S4096x512_S512 _ _ (ix1 q)).trans ?_
  have hf : (L ∘ (reduces_S4096x512_S512 : S4096x512.Reduces [0] S512).lift (ix1 q)) = fun k : Fin 4096 => L (ix2 k q) :=
    funext fun k => congrArg L (lift_rows _ q k)
  exact congrArg (fun f => Finset.fold max (Ideal.ofBits .f32 0xFF800000#32) f (Finset.univ : Finset (Fin 4096))) hf

/-- The sum down the rows. -/
def rowsSum (E : FVec Ideal S4096x512 .f32) : FVec Ideal S512 .f32 :=
  multiReduction .add [0] S512 E 0x00000000#32 reduces_S4096x512_S512 (.inl rfl) rfl

theorem rowsSum_apply (E : FVec Ideal S4096x512 .f32) (q : Fin 512) :
    rowsSum E (ix1 q) = ∑ p' : Fin 4096, E (ix2 p' q) := by
  unfold rowsSum
  refine (Ideal.multiReduction_add_single E _ reduces_S4096x512_S512 _ _ (ix1 q)).trans ?_
  exact Finset.sum_congr rfl fun k _ => congrArg E (lift_rows _ q k)

/-- The logits less their column's maximum, exponentiated. -/
def shiftedExp (L : FVec Ideal S4096x512 .f32) : FVec Ideal S4096x512 .f32 := exp (subf L (downRows (rowsMax L)))

theorem shiftedExp_apply (L : FVec Ideal S4096x512 .f32) (p : Fin 4096) (q : Fin 512) :
    shiftedExp L (ix2 p q) = Ideal.exp (L (ix2 p q) - colMax (fun p' : Fin 4096 => L (ix2 p' q))) := by
  show Ideal.exp (L (ix2 p q) - downRows (rowsMax L) (ix2 p q)) = _
  rw [downRows_apply, rowsMax_apply]

/-- The block's softmax down the rows at (p, q) is the column softmax of column q's logits at p. -/
theorem softmax_apply (L : FVec Ideal S4096x512 .f32) (p : Fin 4096) (q : Fin 512) :
    divf (shiftedExp L) (downRows (rowsSum (shiftedExp L))) (ix2 p q) = colSoftmax (fun p' : Fin 4096 => L (ix2 p' q)) p := by
  show Ideal.div (shiftedExp L (ix2 p q)) (downRows (rowsSum (shiftedExp L)) (ix2 p q)) = _
  rw [downRows_apply, rowsSum_apply, shiftedExp_apply]
  unfold colSoftmax
  exact congrArg (Ideal.div _) (Finset.sum_congr rfl fun p' _ => shiftedExp_apply L p' q)

/-! ## The payload -/

/-- The stored value is that softmax of that product (the two loads' shape casts are to their own shapes). -/
theorem pay_eq (x0 : FVec Ideal S4096x256 .bf16) (x1 : FVec Ideal S256x512 .bf16) :
    k0_pay1 (F := Ideal) x0 x1
      = divf (shiftedExp (matmul dot_S4096x256_S256x512_S4096x512_1_0_0_1_n_n none x0 x1 (constant S4096x512 .f32 0x00000000#32)))
          (downRows (rowsSum (shiftedExp (matmul dot_S4096x256_S256x512_S4096x512_1_0_0_1_n_n none x0 x1 (constant S4096x512 .f32 0x00000000#32))))) := by
  unfold k0_pay1 shiftedExp downRows rowsSum rowsMax
  rw [shapeCast_self, shapeCast_self]

/-- THE PAYLOAD AT AN INDEX: row `p`, column `q` of what the body stores is the column softmax, at `p`, of the logits
    `∑ k, x0 (p', k) * x1 (k, q)`. -/
theorem pay_apply (x0 : FVec Ideal S4096x256 .bf16) (x1 : FVec Ideal S256x512 .bf16) (p : Fin 4096) (q : Fin 512) :
    k0_pay1 (F := Ideal) x0 x1 (ix2 p q) = colSoftmax (fun p' : Fin 4096 => ∑ k : Fin 256, x0 (ix2 p' k) * x1 (ix2 k q)) p := by
  rw [pay_eq, softmax_apply]
  exact congrArg (fun l => colSoftmax l p) (funext fun p' => logits_apply x0 x1 p' q)

end Cert.KernelIdeal.Payload

end
-- ==== Proof.KernelBlocks.lean ====
/-
  From the blocks the kernel writes back to the whole result array.

  The grid has 99 points. At point `t` the kernel reads the whole [4096, 256] array of padded embedding rows and columns
  `512 t … 512 t + 511` of the [256, 50688] array of padded weights, and writes back columns `512 t …` of the
  [4096, 50257] result — all 512 of them for `t < 98`, and the 81 that lie inside the result for `t = 98`. Entry (n, v)
  of the result therefore is the column softmax, at row `n`, of the logits `∑ k, A (n', k) * B (k, v)` of column `v`:
  a function `G` of the two staged arrays alone, whichever block wrote it. The blocks cover the result: column `v` lies in
  the block of point `v / 512`.
-/
import proofs.«427122_j2345052144357_3_alg».proof.Proof.Gen.KernelIdeal.Value
import proofs.«427122_j2345052144357_3_alg».proof.Proof.KernelPayload

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.ColSoftmax
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The logits of result column `v`, down the 4096 rows: row `n'` of `A` against column `v` of `B`. -/
def logits (A : FVec Ideal S4096x256 .bf16) (B : FVec Ideal S256x50688 .bf16) (v : Fin 50688) (n' : Fin 4096) : EReal :=
  ∑ k : Fin 256, A (ix2 n' k) * B (ix2 k v)

/-- THE RESULT ARRAY as one function of the two staged arrays: entry (n, v) is the softmax down column `v` at row `n`. -/
def G (A : FVec Ideal S4096x256 .bf16) (B : FVec Ideal S256x50688 .bf16) : S4096x50257.Idx → EReal := fun i =>
  colSoftmax (logits A B ⟨(i 1).val, Nat.lt_of_lt_of_le (idx2_lt1 i) (by omega)⟩) ⟨(i 0).val, idx2_lt0 i⟩

theorem G_apply (A : FVec Ideal S4096x256 .bf16) (B : FVec Ideal S256x50688 .bf16) (n : Fin 4096) (v : Fin 50257) :
    G A B (ix2 n v) = colSoftmax (logits A B ⟨v.val, by omega⟩) n := rfl

/-- The printed index maps, decided over the 99 points: the embedding block is always block (0, 0); the weight block and
    the result block are block (0, t); the result block has all 4096 rows, and 512 columns unless it overhangs the
    result's 50257 columns, where it has those up to the end. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_2.xsize (grid0.coords t) (0 : Fin 2) = 4096
    ∧ win0_2.xsize (grid0.coords t) (1 : Fin 2) ≤ 512
    ∧ (t.val * 512 + 512 ≤ 50257 → win0_2.xsize (grid0.coords t) (1 : Fin 2) = 512)
    ∧ (50257 < t.val * 512 + 512 → t.val * 512 + win0_2.xsize (grid0.coords t) (1 : Fin 2) = 50257) :=
  (by decide +kernel : ∀ t : Fin grid0.N, _)

/-! ## What each point reads -/

/-- The embedding block at any point is the whole array. -/
theorem read_emb (c : Dev nD) (t : Fin cfg0.N) (p : Fin 4096) (k : Fin 256) :
    (iblk m c 0 t : S4096x256.Idx → EReal) (ix2 p k) = (V m c main_v11 : S4096x256.Idx → EReal) (ix2 p k) := by
  show (V m c main_v11 : S4096x256.Idx → EReal) (((cfg0.win 0).blk t).view.emb (ix2 p k)) = _
  obtain ⟨e0, e1, -⟩ := idx_facts t
  refine congrArg (V m c main_v11 : S4096x256.Idx → EReal) (funext fun a => Fin.ext ?_)
  match a with
  | ⟨0, _⟩ => show win0_0.index t (0 : Fin 2) * 4096 + 1 * p.val = p.val; omega
  | ⟨1, _⟩ => show win0_0.index t (1 : Fin 2) * 256 + 1 * k.val = k.val; omega

/-- The weight block at point `t` is columns `512 t …` of the array. -/
theorem read_wts (c : Dev nD) (t : Fin cfg0.N) (k : Fin 256) (q : Fin 512) :
    (iblk m c 1 t : S256x512.Idx → EReal) (ix2 k q)
      = (V m c main_v23 : S256x50688.Idx → EReal) (ix2 k ⟨t.val * 512 + q.val, by have := t.isLt; have : cfg0.N = 99 := N_0; omega⟩) := by
  show (V m c main_v23 : S256x50688.Idx → EReal) (((cfg0.win 1).blk t).view.emb (ix2 k q)) = _
  obtain ⟨-, -, e2, e3, -⟩ := idx_facts t
  refine congrArg (V m c main_v23 : S256x50688.Idx → EReal) (funext fun a => Fin.ext ?_)
  match a with
  | ⟨0, _⟩ => show win0_1.index t (0 : Fin 2) * 256 + 1 * k.val = k.val; omega
  | ⟨1, _⟩ => show win0_1.index t (1 : Fin 2) * 512 + 1 * q.val = t.val * 512 + q.val; omega

/-! ## What each point writes back -/

/-- One block against the whole arrays: if the first loaded block is the array `A` and the second is columns
    `512 tv …` of the array `B`, the stored value at (p, q) is `G A B` at (p, 512 tv + q). -/
theorem block_eq (X0 : FVec Ideal S4096x256 .bf16) (X1 : FVec Ideal S256x512 .bf16)
    (A : FVec Ideal S4096x256 .bf16) (B : FVec Ideal S256x50688 .bf16) (tv : Nat) (htv : tv < 99)
    (h0 : ∀ (p : Fin 4096) (k : Fin 256), X0 (ix2 p k) = A (ix2 p k))
    (h1 : ∀ (k : Fin 256) (q : Fin 512), X1 (ix2 k q) = B (ix2 k ⟨tv * 512 + q.val, by omega⟩))
    (p : Fin 4096) (q : Fin 512) (hv : tv * 512 + q.val < 50257) :
    k0_pay1 (F := Ideal) X0 X1 (ix2 p q) = G A B (ix2 p (⟨tv * 512 + q.val, hv⟩ : Fin 50257)) := by
  rw [G_apply]
  refine (Payload.pay_apply X0 X1 p q).trans ?_
  refine congrArg (fun l => colSoftmax l p) (funext fun p' => ?_)
  unfold logits
  exact Finset.sum_congr rfl fun k _ => by rw [h0 p' k, h1 k q]

/-- An index of point `t`'s result block, as an index of the result: row as it is, column `512 t` further on. -/
theorem emb_eq (t : Fin cfg0.N) (j : ((cfg0.win 2).xblock (grid0.coords t)).Idx) (hj0 : (j 0).val < 4096)
    (hv : t.val * 512 + (j 1).val < 50257) (e4 : win0_2.index t (0 : Fin 2) = 0) (e5 : win0_2.index t (1 : Fin 2) = t.val) :
    ((cfg0.win 2).blk t).view.emb j = ix2 (⟨(j 0).val, hj0⟩ : Fin 4096) (⟨t.val * 512 + (j 1).val, hv⟩ : Fin 50257) := by
  funext a
  apply Fin.ext
  match a with
  | ⟨0, _⟩ =>
    show win0_2.index t (0 : Fin 2) * 4096 + 1 * (j 0).val = (j 0).val
    rw [e4]; omega
  | ⟨1, _⟩ =>
    show win0_2.index t (1 : Fin 2) * 512 + 1 * (j 1).val = t.val * 512 + (j 1).val
    rw [e5]; omega

/-- The same index inside the staging block. -/
theorem xinj_eq (t : Fin cfg0.N) (j : ((cfg0.win 2).xblock (grid0.coords t)).Idx) (hj0 : (j 0).val < 4096) (hj1 : (j 1).val < 512) :
    (cfg0.win 2).xinj (grid0.coords t) j = ix2 (⟨(j 0).val, hj0⟩ : Fin 4096) (⟨(j 1).val, hj1⟩ : Fin 512) :=
  funext fun a => Fin.ext (by
    match a with
    | ⟨0, _⟩ => rfl
    | ⟨1, _⟩ => rfl)

/-- The coordinates of an index of point `t`'s result block are inside the staging block and inside the result. -/
theorem coords_lt (t : Fin cfg0.N) (j : ((cfg0.win 2).xblock (grid0.coords t)).Idx) :
    (j 0).val < 4096 ∧ (j 1).val < 512 ∧ t.val * 512 + (j 1).val < 50257 := by
  obtain ⟨-, -, -, -, -, e5, x0, x1, -⟩ := idx_facts t
  have h0 : (j 0).val < win0_2.xsize (grid0.coords t) (0 : Fin 2) := (j 0).isLt
  have h1 : (j 1).val < win0_2.xsize (grid0.coords t) (1 : Fin 2) := (j 1).isLt
  have h2 : (((cfg0.win 2).blk t).view.emb j 1).val < 50257 := (((cfg0.win 2).blk t).view.emb j 1).isLt
  have e : (((cfg0.win 2).blk t).view.emb j 1).val = win0_2.index t (1 : Fin 2) * 512 + 1 * (j 1).val := rfl
  rw [e, e5] at h2
  rw [x0] at h0
  refine ⟨h0, Nat.lt_of_lt_of_le h1 x1, ?_⟩
  clear h0 h1 x0 x1 e5 e
  omega

/-- A staging block cut at the result's end is a block of a whole-array function as soon as the two agree index by
    index: the cut reads the staging block at the same coordinates, the block of the array reads the array at the
    block's offset. -/
theorem cut_eq_read (t : Fin cfg0.N) (X : S4096x512.Idx → EReal) (Gf : S4096x50257.Idx → EReal)
    (h : ∀ j : ((cfg0.win 2).xblock (grid0.coords t)).Idx,
      X ((cfg0.win 2).xinj (grid0.coords t) j) = Gf (((cfg0.win 2).blk t).view.emb j)) :
    (cfg0.win 2).cut (grid0.coords t) X = ((cfg0.win 2).blk t).view.read (Elt Ideal) Gf :=
  funext h

/-- WHAT POINT `t` WRITES BACK is block `t` of `G` of the two staged arrays as the region finds them. -/
theorem flushed_eq (c : Dev nD) (t : Fin cfg0.N) :
    (dats m 0 c).flushed 2 t = ((cfg0.win 2).blk t).view.read (Elt Ideal) (G (V m c main_v11) (V m c main_v23)) := by
  rw [Value.flushed2]
  unfold out0_2
  rw [View.canon_unit_zero hz]
  simp only [View.ld_unit_zero (S := S4096x256) hz, View.ld_unit_zero (S := S256x512) hz]
  refine cut_eq_read t _ _ fun j => ?_
  obtain ⟨hj0, hj1, hv⟩ := coords_lt t j
  have e4 : win0_2.index t (0 : Fin 2) = 0 := (idx_facts t).2.2.2.2.1
  have e5 : win0_2.index t (1 : Fin 2) = t.val := (idx_facts t).2.2.2.2.2.1
  have htN : t.val < 99 := Nat.lt_of_lt_of_eq t.isLt N_0
  rw [xinj_eq t j hj0 hj1, emb_eq t j hj0 hv e4 e5]
  exact block_eq (iblk m c 0 t) (iblk m c 1 t) (V m c main_v11) (V m c main_v23) t.val htN (read_emb m c t) (read_wts m c t)
    ⟨(j 0).val, hj0⟩ ⟨(j 1).val, hj1⟩ hv

/-! ## The blocks cover the result -/

/-- An index of the result is in point `t`'s block iff each coordinate is in the block's range on its axis, the range cut
    at the result's end. -/
theorem mem_blk (t : Fin cfg0.N) (i : S4096x50257.Idx) :
    i ∈ ((cfg0.win 2).blk t).view.set ↔ ∀ a : Fin 2, win0_2.index t a * S4096x512.size a ≤ (i a).val
      ∧ (i a).val < win0_2.index t a * S4096x512.size a + win0_2.xsize (grid0.coords t) a := by
  show i ∈ ((View.whole main_v24).slice (win0_2.rect t)).set ↔ _
  rw [View.set_slice_whole, Rect.mem_set_unit]
  exact Iff.rfl

/-- Column `v` of the result lies in the block of point `v / 512`. -/
theorem cover (i : S4096x50257.Idx) : ∃ t : Fin cfg0.N, (cfg0.win 2).flush t = true ∧ i ∈ ((cfg0.win 2).blk t).view.set := by
  have hi0 : (i 0).val < 4096 := idx2_lt0 i
  have hi1 : (i 1).val < 50257 := idx2_lt1 i
  have hN : cfg0.N = 99 := N_0
  refine ⟨⟨(i 1).val / 512, by omega⟩, flush0_2 _, ?_⟩
  rw [mem_blk]
  obtain ⟨-, -, -, -, e4, e5, x0, x1, x2, x3⟩ := idx_facts ⟨(i 1).val / 512, by omega⟩
  intro a
  match a with
  | ⟨0, _⟩ =>
    show win0_2.index _ (0 : Fin 2) * 4096 ≤ (i 0).val ∧ (i 0).val < win0_2.index _ (0 : Fin 2) * 4096 + win0_2.xsize _ (0 : Fin 2)
    rw [e4, x0]; omega
  | ⟨1, _⟩ =>
    show win0_2.index _ (1 : Fin 2) * 512 ≤ (i 1).val ∧ (i 1).val < win0_2.index _ (1 : Fin 2) * 512 + win0_2.xsize _ (1 : Fin 2)
    rw [e5]
    have hv : (⟨(i 1).val / 512, by omega⟩ : Fin cfg0.N).val = (i 1).val / 512 := rfl
    rw [hv] at x2 x3 ⊢
    by_cases hc : (i 1).val / 512 * 512 + 512 ≤ 50257
    · have := x2 hc; omega
    · have := x3 (by omega); omega

/-! ## The result array, and the run -/

/-- THE RESULT ARRAY after the run is `G` of the two staged arrays. -/
theorem final (c : Dev nD) : (dats m 0 c).arrAt 2 cfg0.N = G (V m c main_v11) (V m c main_v23) :=
  (dats m 0 c).arrAt_eq_of_cover 2 (G (V m c main_v11) (V m c main_v23)) (fun t _ => flushed_eq m c t) cover

/-- The kernel's run re-posted: the result array at `G` of the staged arrays, the arguments unchanged. -/
theorem run : θ_run defs (onTc (τ := τ) (main (F := Ideal))) ⟨m, fun _ => 0, ρ⟩ fun r => ∀ c : Dev nD,
      r.2.mem ((c : Thread nD τ).loc main_v24) = G (V m c main_v11) (V m c main_v23)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.LibScatterSet.lean ====
/-
  GENERAL LEMMAS (no program imported): a scatter whose body returns the update, read at one element.

  `Host.scatter d f x idx upd` is the left fold, over the update positions in row-major order, of "replace the element
  the update lands on by `f` of it and the update".  Read at one element `i`:
    * `scatter_of_not_hit`     — when no update lands on `i` the element is the operand's, whatever the body `f`;
    * `scatter_set_of_hit`     — when the body returns the update (jax's `x.at[idx].set(v)`) and exactly one update
                                  position `j₀` lands on `i`, the element is that update;
    * `colSetDims`, `colSet_resultIdx`, `colSet_apply_col`, `colSet_apply_other`
                                — the scatter jax prints for `x.at[:, c].set(v)` on an [R, C] operand (one scatter
                                  index, the column; the update's axis the window over the rows) replaces column `c`
                                  by `v` and keeps every other column.
-/
import Idealize.ShloMosaic.PureOps.ShapeOps
import Idealize.ShloMosaic.Lib.ValueIdx
import Idealize.ShloMosaic.Lib.StableHlo.Predicate

noncomputable section

namespace Cert.LibScatterSet

open Idealize.ShloMosaic Idealize.ShloMosaic.ValueIdx

variable {α : Type} {s si u : Shape} {w : Nat}

/-- A fold of scatter steps over update positions none of which lands on `i` leaves the element at `i` alone. -/
theorem foldl_not_hit (d : ScatterDims s si u) (f : α → α → α) (idx : IVec si w) (upd : u.Idx → α) (i : s.Idx) :
    ∀ (l : List (Fin u.numel)) (r : s.Idx → α), (∀ n ∈ l, d.resultIdx? (u.rowMajor.symm n) idx ≠ some i) →
    (l.foldl (fun r n =>
        match d.resultIdx? (u.rowMajor.symm n) idx with
        | some i0 => fun i' => if i' = i0 then f (r i0) (upd (u.rowMajor.symm n)) else r i'
        | none => r) r) i = r i := by
  intro l
  induction l with
  | nil => intro r _; rfl
  | cons n l ih =>
    intro r h
    rw [List.foldl_cons, ih _ (fun n' hn' => h n' (List.mem_cons_of_mem _ hn'))]
    have hn := h n List.mem_cons_self
    cases hr : d.resultIdx? (u.rowMajor.symm n) idx with
    | none => rfl
    | some i0 =>
      have hne : ¬ i = i0 := fun e => hn (by rw [hr, e])
      simp [hne]

/-- No update lands on `i`: the scatter's element there is the operand's. -/
theorem scatter_of_not_hit (d : ScatterDims s si u) (f : α → α → α) (x : s.Idx → α) (idx : IVec si w) (upd : u.Idx → α)
    (i : s.Idx) (h : ∀ j : u.Idx, d.resultIdx? j idx ≠ some i) : Host.scatter d f x idx upd i = x i := by
  unfold Host.scatter
  exact foldl_not_hit d f idx upd i _ x (fun n _ => h _)

/-- A fold of SET steps over distinct update positions, exactly one of which (`n₀`) lands on `i`, leaves that update there. -/
theorem foldl_set_hit (d : ScatterDims s si u) (idx : IVec si w) (upd : u.Idx → α) (i : s.Idx) (n0 : Fin u.numel)
    (h0 : d.resultIdx? (u.rowMajor.symm n0) idx = some i)
    (hu : ∀ n, n ≠ n0 → d.resultIdx? (u.rowMajor.symm n) idx ≠ some i) :
    ∀ (l : List (Fin u.numel)) (r : s.Idx → α), l.Nodup → n0 ∈ l →
    (l.foldl (fun r n =>
        match d.resultIdx? (u.rowMajor.symm n) idx with
        | some i0 => fun i' => if i' = i0 then (fun (_ b : α) => b) (r i0) (upd (u.rowMajor.symm n)) else r i'
        | none => r) r) i = upd (u.rowMajor.symm n0) := by
  intro l
  induction l with
  | nil => intro r _ hm; exact absurd hm (List.not_mem_nil)
  | cons a l ih =>
    intro r hnd hm
    rw [List.foldl_cons]
    by_cases ha : a = n0
    · subst ha
      have hnot : a ∉ l := (List.nodup_cons.mp hnd).1
      rw [foldl_not_hit d (fun (_ b : α) => b) idx upd i l _ (fun n hn => hu n (fun e => hnot (e ▸ hn)))]
      simp [h0]
    · have hm' : n0 ∈ l := by
        rcases List.mem_cons.mp hm with e | e
        · exact absurd e.symm ha
        · exact e
      exact ih _ (List.nodup_cons.mp hnd).2 hm'

/-- The body returns the update and exactly one update position `j₀` lands on `i`: the element is that update. -/
theorem scatter_set_of_hit (d : ScatterDims s si u) (x : s.Idx → α) (idx : IVec si w) (upd : u.Idx → α) (i : s.Idx) (j0 : u.Idx)
    (h0 : d.resultIdx? j0 idx = some i) (hu : ∀ j, j ≠ j0 → d.resultIdx? j idx ≠ some i) :
    Host.scatter d (fun _ b => b) x idx upd i = upd j0 := by
  unfold Host.scatter
  have e : u.rowMajor.symm (u.rowMajor j0) = j0 := Equiv.symm_apply_apply _ _
  exact (foldl_set_hit d idx upd i (u.rowMajor j0) (by rw [e]; exact h0)
    (fun n hn => hu _ (fun ej => hn (by rw [← ej, Equiv.apply_symm_apply])))
    (List.finRange u.numel) x (List.nodup_finRange _) (List.mem_finRange _)).trans (congrArg upd e)

/-! ## Setting one column of a matrix -/

/-- The dimension numbers jax gives `stablehlo.scatter` for `x.at[:, c].set(v)` on an [R, C] operand: ONE scatter index
    (the index vector [c], on axis 0 of the scatter indices), the operand's column axis inserted and start-indexed, the
    update's one axis the window over the rows. Their conditions are decided on a program's literal shapes; a printed
    record with these fields is this one. -/
abbrev colSetDims (R C : Nat) (wf : ScatterDims.WF ⟨2, ![R, C]⟩ ⟨1, ![1]⟩ ⟨1, ![R]⟩ [0] [1] [1] 0) :
    ScatterDims ⟨2, ![R, C]⟩ ⟨1, ![1]⟩ ⟨1, ![R]⟩ where
  updateWindowDims := [0]
  insertedWindowDims := [1]
  scatterDimsToOperandDims := [1]
  indexVectorDim := 0
  wf := wf

/-- Update position `j` (a row) lands on that row of column `c`, when the index word reads `c`. -/
theorem colSet_resultIdx {R C : Nat} (wf : ScatterDims.WF ⟨2, ![R, C]⟩ ⟨1, ![1]⟩ ⟨1, ![R]⟩ [0] [1] [1] 0)
    (idx : IVec ⟨1, ![1]⟩ w) (c : Fin C) (hc : (idx (ix1 (0 : Fin 1))).toInt = (c.val : Int)) (j : (⟨1, ![R]⟩ : Shape).Idx) :
    (colSetDims R C wf).resultIdx? j idx = some (ix2 (j 0) c) := by
  have hs0 : (colSetDims R C wf).start j idx 0 = 0 := by
    unfold ScatterDims.start
    rw [dif_neg (show (0 : Fin 2) ∉ ([1] : List (Fin 2)) by decide)]
  have hs1 : (colSetDims R C wf).start j idx 1 = (c.val : Int) := by
    unfold ScatterDims.start
    rw [dif_pos (List.mem_singleton.mpr rfl)]
    have hsi : (colSetDims R C wf).siIdx j
        ⟨List.idxOf (1 : Fin 2) (colSetDims R C wf).scatterDimsToOperandDims, List.idxOf_lt_length_iff.2 (List.mem_singleton.mpr rfl)⟩
        = ix1 (0 : Fin 1) := funext fun b => Fin.ext (by
      match b with
      | ⟨0, _⟩ => rfl)
    rw [hsi]; exact hc
  have hw0 : (colSetDims R C wf).window j 0 = (j 0).val := by
    unfold ScatterDims.window
    have h : (0 : Fin 2) ∈ (colSetDims R C wf).sKept :=
      (show (0 : Fin 2) ∈ (List.finRange 2).filter (· ∉ ([1] : List (Fin 2))) by decide)
    rw [dif_pos h]
    rfl
  have hw1 : (colSetDims R C wf).window j 1 = 0 := by
    unfold ScatterDims.window
    have h : (1 : Fin 2) ∉ (colSetDims R C wf).sKept :=
      (show (1 : Fin 2) ∉ (List.finRange 2).filter (· ∉ ([1] : List (Fin 2))) by decide)
    rw [dif_neg h]
  unfold ScatterDims.resultIdx?
  have hin : ∀ a, 0 ≤ (colSetDims R C wf).start j idx a + (colSetDims R C wf).window j a
      ∧ (colSetDims R C wf).start j idx a + (colSetDims R C wf).window j a < (⟨2, ![R, C]⟩ : Shape).size a := fun a => by
    match a with
    | ⟨0, _⟩ =>
      show 0 ≤ (colSetDims R C wf).start j idx 0 + ((colSetDims R C wf).window j 0 : Int)
        ∧ (colSetDims R C wf).start j idx 0 + ((colSetDims R C wf).window j 0 : Int) < (R : Int)
      rw [hs0, hw0]; have := (j 0).isLt
      have h2 : ((⟨1, ![R]⟩ : Shape).size 0) = R := rfl
      omega
    | ⟨1, _⟩ =>
      show 0 ≤ (colSetDims R C wf).start j idx 1 + ((colSetDims R C wf).window j 1 : Int)
        ∧ (colSetDims R C wf).start j idx 1 + ((colSetDims R C wf).window j 1 : Int) < (C : Int)
      rw [hs1, hw1]; have := c.isLt; omega
  rw [dif_pos hin]
  refine congrArg some (funext fun a => Fin.ext ?_)
  match a with
  | ⟨0, _⟩ =>
    show ((colSetDims R C wf).start j idx 0 + ((colSetDims R C wf).window j 0 : Int)).toNat = (j 0).val
    rw [hs0, hw0]; simp
  | ⟨1, _⟩ =>
    show ((colSetDims R C wf).start j idx 1 + ((colSetDims R C wf).window j 1 : Int)).toNat = c.val
    rw [hs1, hw1]; simp

/-- Column `c` after the set is the update, row by row. -/
theorem colSet_apply_col {R C : Nat} (wf : ScatterDims.WF ⟨2, ![R, C]⟩ ⟨1, ![1]⟩ ⟨1, ![R]⟩ [0] [1] [1] 0)
    (x : (⟨2, ![R, C]⟩ : Shape).Idx → α) (idx : IVec ⟨1, ![1]⟩ w) (upd : (⟨1, ![R]⟩ : Shape).Idx → α) (c : Fin C)
    (hc : (idx (ix1 (0 : Fin 1))).toInt = (c.val : Int)) (r : Fin R) :
    Host.scatter (colSetDims R C wf) (fun _ b => b) x idx upd (ix2 r c) = upd (ix1 r) := by
  refine scatter_set_of_hit _ x idx upd (ix2 r c) (ix1 r) (colSet_resultIdx wf idx c hc (ix1 r)) (fun j hj => ?_)
  rw [colSet_resultIdx wf idx c hc j]
  intro e
  apply hj
  have e0 := congrFun (Option.some.inj e) 0
  rw [eq_ix1 j]
  exact congrArg ix1 e0

/-- Every other column is kept, whatever the body. -/
theorem colSet_apply_other {R C : Nat} (wf : ScatterDims.WF ⟨2, ![R, C]⟩ ⟨1, ![1]⟩ ⟨1, ![R]⟩ [0] [1] [1] 0) (f : α → α → α)
    (x : (⟨2, ![R, C]⟩ : Shape).Idx → α) (idx : IVec ⟨1, ![1]⟩ w) (upd : (⟨1, ![R]⟩ : Shape).Idx → α) (c : Fin C)
    (hc : (idx (ix1 (0 : Fin 1))).toInt = (c.val : Int)) (r : Fin R) (c' : Fin C) (hne : c' ≠ c) :
    Host.scatter (colSetDims R C wf) f x idx upd (ix2 r c') = x (ix2 r c') := by
  refine scatter_of_not_hit _ f x idx upd (ix2 r c') (fun j => ?_)
  rw [colSet_resultIdx wf idx c hc j]
  intro e
  exact hne (congrFun (Option.some.inj e) 1).symm

end Cert.LibScatterSet

end
-- ==== Proof.LibScatterWindow.lean ====
/-
  GENERAL LEMMAS (no program imported): three more scatters whose body returns the update, read at one element.

  Each is a scatter with ONE index vector, so the update is one window laid on the operand at the start the index
  vector names; the window's coordinates are the update's own.  With the start at the origin of the window's axes:
    * `colsSetDims`, `colsSet_resultIdx`, `colsSet_apply_in`, `colsSet_apply_out`
        — `x.at[:, :C'].set(u)` on an [R, C] operand (index vector [c₀], both operand axes window axes): the first
          `C'` columns are the update's, the others are kept;
    * `boxSetDims`, `boxSet_resultIdx`, `boxSet_apply_in`, `boxSet_apply_out`
        — `x.at[:R', :C'].set(u)` on an [R, C] operand (index vector [r₀, c₀]): the top-left [R', C'] box is the
          update's, everything outside it is kept;
    * `rowSetDims`, `rowSet_resultIdx`, `rowSet_apply_in`, `rowSet_apply_out`
        — `x.at[r₀, :C'].set(v)` on an [R, C] operand (index vector [r₀, c₀], the row axis inserted): the first `C'`
          entries of row `r₀` are the update's, everything else is kept.
  The "kept" halves hold whatever the scatter's body.
-/
import Idealize.ShloMosaic.PureOps.ShapeOps
import Idealize.ShloMosaic.Lib.ValueIdx
import Idealize.ShloMosaic.Lib.StableHlo.Predicate
import proofs.«427122_j2345052144357_3_alg».proof.Proof.LibScatterSet

noncomputable section

namespace Cert.LibScatterWindow

open Idealize.ShloMosaic Idealize.ShloMosaic.ValueIdx Cert.LibScatterSet

variable {α : Type} {w : Nat}

/-! ## Setting the first columns of a matrix -/

/-- The dimension numbers jax gives `stablehlo.scatter` for `x.at[:, :C'].set(u)` on an [R, C] operand: ONE scatter
    index (the index vector [c₀], on axis 0 of the scatter indices) that starts the column axis, no inserted axis, the
    update's two axes the window over rows and columns. -/
abbrev colsSetDims (R C C' : Nat) (wf : ScatterDims.WF ⟨2, ![R, C]⟩ ⟨1, ![1]⟩ ⟨2, ![R, C']⟩ [0, 1] [] [1] 0) :
    ScatterDims ⟨2, ![R, C]⟩ ⟨1, ![1]⟩ ⟨2, ![R, C']⟩ where
  updateWindowDims := [0, 1]
  insertedWindowDims := []
  scatterDimsToOperandDims := [1]
  indexVectorDim := 0
  wf := wf

/-- Update position `j` lands on the operand position of the same coordinates, when the index word reads `0`. -/
theorem colsSet_resultIdx {R C C' : Nat} (wf : ScatterDims.WF ⟨2, ![R, C]⟩ ⟨1, ![1]⟩ ⟨2, ![R, C']⟩ [0, 1] [] [1] 0)
    (idx : IVec ⟨1, ![1]⟩ w) (h0 : (idx (ix1 (0 : Fin 1))).toInt = 0) (hC : C' ≤ C) (j : (⟨2, ![R, C']⟩ : Shape).Idx) :
    (colsSetDims R C C' wf).resultIdx? j idx = some (ix2 (j 0) ⟨(j 1).val, lt_of_lt_of_le (j 1).isLt hC⟩) := by
  have hs0 : (colsSetDims R C C' wf).start j idx 0 = 0 := by
    unfold ScatterDims.start
    rw [dif_neg (show (0 : Fin 2) ∉ ([1] : List (Fin 2)) by decide)]
  have hs1 : (colsSetDims R C C' wf).start j idx 1 = 0 := by
    unfold ScatterDims.start
    rw [dif_pos (List.mem_singleton.mpr rfl)]
    have hsi : (colsSetDims R C C' wf).siIdx j
        ⟨List.idxOf (1 : Fin 2) (colsSetDims R C C' wf).scatterDimsToOperandDims, List.idxOf_lt_length_iff.2 (List.mem_singleton.mpr rfl)⟩
        = ix1 (0 : Fin 1) := funext fun b => Fin.ext (by
      match b with
      | ⟨0, _⟩ => rfl)
    rw [hsi]; exact h0
  have hw0 : (colsSetDims R C C' wf).window j 0 = (j 0).val := by
    unfold ScatterDims.window
    have h : (0 : Fin 2) ∈ (colsSetDims R C C' wf).sKept :=
      (show (0 : Fin 2) ∈ (List.finRange 2).filter (· ∉ ([] : List (Fin 2))) by decide)
    rw [dif_pos h]
    rfl
  have hw1 : (colsSetDims R C C' wf).window j 1 = (j 1).val := by
    unfold ScatterDims.window
    have h : (1 : Fin 2) ∈ (colsSetDims R C C' wf).sKept :=
      (show (1 : Fin 2) ∈ (List.finRange 2).filter (· ∉ ([] : List (Fin 2))) by decide)
    rw [dif_pos h]
    rfl
  unfold ScatterDims.resultIdx?
  have hin : ∀ a, 0 ≤ (colsSetDims R C C' wf).start j idx a + (colsSetDims R C C' wf).window j a
      ∧ (colsSetDims R C C' wf).start j idx a + (colsSetDims R C C' wf).window j a < (⟨2, ![R, C]⟩ : Shape).size a := fun a => by
    match a with
    | ⟨0, _⟩ =>
      show 0 ≤ (colsSetDims R C C' wf).start j idx 0 + ((colsSetDims R C C' wf).window j 0 : Int)
        ∧ (colsSetDims R C C' wf).start j idx 0 + ((colsSetDims R C C' wf).window j 0 : Int) < (R : Int)
      rw [hs0, hw0]; have := (j 0).isLt
      have h2 : ((⟨2, ![R, C']⟩ : Shape).size 0) = R := rfl
      omega
    | ⟨1, _⟩ =>
      show 0 ≤ (colsSetDims R C C' wf).start j idx 1 + ((colsSetDims R C C' wf).window j 1 : Int)
        ∧ (colsSetDims R C C' wf).start j idx 1 + ((colsSetDims R C C' wf).window j 1 : Int) < (C : Int)
      rw [hs1, hw1]; have := (j 1).isLt
      have h2 : ((⟨2, ![R, C']⟩ : Shape).size 1) = C' := rfl
      omega
  rw [dif_pos hin]
  refine congrArg some (funext fun a => Fin.ext ?_)
  match a with
  | ⟨0, _⟩ =>
    show ((colsSetDims R C C' wf).start j idx 0 + ((colsSetDims R C C' wf).window j 0 : Int)).toNat = (j 0).val
    rw [hs0, hw0]; simp
  | ⟨1, _⟩ =>
    show ((colsSetDims R C C' wf).start j idx 1 + ((colsSetDims R C C' wf).window j 1 : Int)).toNat = (j 1).val
    rw [hs1, hw1]; simp

/-- A column below `C'` after the set is the update's. -/
theorem colsSet_apply_in {R C C' : Nat} (wf : ScatterDims.WF ⟨2, ![R, C]⟩ ⟨1, ![1]⟩ ⟨2, ![R, C']⟩ [0, 1] [] [1] 0)
    (x : (⟨2, ![R, C]⟩ : Shape).Idx → α) (idx : IVec ⟨1, ![1]⟩ w) (upd : (⟨2, ![R, C']⟩ : Shape).Idx → α)
    (h0 : (idx (ix1 (0 : Fin 1))).toInt = 0) (hC : C' ≤ C) (r : Fin R) (c : Fin C) (h : c.val < C') :
    Host.scatter (colsSetDims R C C' wf) (fun _ b => b) x idx upd (ix2 r c) = upd (ix2 r ⟨c.val, h⟩) := by
  refine scatter_set_of_hit _ x idx upd (ix2 r c) (ix2 r ⟨c.val, h⟩) (colsSet_resultIdx wf idx h0 hC _) (fun j hj => ?_)
  rw [colsSet_resultIdx wf idx h0 hC j]
  intro e
  apply hj
  have e0 := congrFun (Option.some.inj e) 0
  have e1 := congrArg Fin.val (congrFun (Option.some.inj e) 1)
  rw [eq_ix2 j]
  exact congrArg₂ ix2 e0 (Fin.ext e1)

/-- Every column from `C'` on is kept, whatever the body. -/
theorem colsSet_apply_out {R C C' : Nat} (wf : ScatterDims.WF ⟨2, ![R, C]⟩ ⟨1, ![1]⟩ ⟨2, ![R, C']⟩ [0, 1] [] [1] 0)
    (f : α → α → α) (x : (⟨2, ![R, C]⟩ : Shape).Idx → α) (idx : IVec ⟨1, ![1]⟩ w) (upd : (⟨2, ![R, C']⟩ : Shape).Idx → α)
    (h0 : (idx (ix1 (0 : Fin 1))).toInt = 0) (hC : C' ≤ C) (r : Fin R) (c : Fin C) (h : C' ≤ c.val) :
    Host.scatter (colsSetDims R C C' wf) f x idx upd (ix2 r c) = x (ix2 r c) := by
  refine scatter_of_not_hit _ f x idx upd (ix2 r c) (fun j => ?_)
  rw [colsSet_resultIdx wf idx h0 hC j]
  intro e
  have e1 : (j 1).val = c.val := congrArg Fin.val (congrFun (Option.some.inj e) 1)
  have := (j 1).isLt
  have h2 : ((⟨2, ![R, C']⟩ : Shape).size 1) = C' := rfl
  omega

/-! ## Setting the top-left box of a matrix -/

/-- The dimension numbers jax gives `stablehlo.scatter` for `x.at[:R', :C'].set(u)` on an [R, C] operand: ONE index
    vector [r₀, c₀] (on axis 0 of the scatter indices) that starts both operand axes, no inserted axis, the update's
    two axes the window over rows and columns. -/
abbrev boxSetDims (R C R' C' : Nat) (wf : ScatterDims.WF ⟨2, ![R, C]⟩ ⟨1, ![2]⟩ ⟨2, ![R', C']⟩ [0, 1] [] [0, 1] 0) :
    ScatterDims ⟨2, ![R, C]⟩ ⟨1, ![2]⟩ ⟨2, ![R', C']⟩ where
  updateWindowDims := [0, 1]
  insertedWindowDims := []
  scatterDimsToOperandDims := [0, 1]
  indexVectorDim := 0
  wf := wf

/-- Update position `j` lands on the operand position of the same coordinates, when both index words read `0`. -/
theorem boxSet_resultIdx {R C R' C' : Nat} (wf : ScatterDims.WF ⟨2, ![R, C]⟩ ⟨1, ![2]⟩ ⟨2, ![R', C']⟩ [0, 1] [] [0, 1] 0)
    (idx : IVec ⟨1, ![2]⟩ w) (h0 : (idx (ix1 (0 : Fin 2))).toInt = 0) (h1 : (idx (ix1 (1 : Fin 2))).toInt = 0)
    (hR : R' ≤ R) (hC : C' ≤ C) (j : (⟨2, ![R', C']⟩ : Shape).Idx) :
    (boxSetDims R C R' C' wf).resultIdx? j idx
      = some (ix2 ⟨(j 0).val, lt_of_lt_of_le (j 0).isLt hR⟩ ⟨(j 1).val, lt_of_lt_of_le (j 1).isLt hC⟩) := by
  have hm0 : (0 : Fin 2) ∈ ([0, 1] : List (Fin 2)) := by decide
  have hm1 : (1 : Fin 2) ∈ ([0, 1] : List (Fin 2)) := by decide
  have hs0 : (boxSetDims R C R' C' wf).start j idx 0 = 0 := by
    unfold ScatterDims.start
    rw [dif_pos hm0]
    have hsi : (boxSetDims R C R' C' wf).siIdx j
        ⟨List.idxOf (0 : Fin 2) (boxSetDims R C R' C' wf).scatterDimsToOperandDims, List.idxOf_lt_length_iff.2 hm0⟩
        = ix1 (0 : Fin 2) := funext fun b => Fin.ext (by
      match b with
      | ⟨0, _⟩ => rfl)
    rw [hsi]; exact h0
  have hs1 : (boxSetDims R C R' C' wf).start j idx 1 = 0 := by
    unfold ScatterDims.start
    rw [dif_pos hm1]
    have hsi : (boxSetDims R C R' C' wf).siIdx j
        ⟨List.idxOf (1 : Fin 2) (boxSetDims R C R' C' wf).scatterDimsToOperandDims, List.idxOf_lt_length_iff.2 hm1⟩
        = ix1 (1 : Fin 2) := funext fun b => Fin.ext (by
      match b with
      | ⟨0, _⟩ => rfl)
    rw [hsi]; exact h1
  have hw0 : (boxSetDims R C R' C' wf).window j 0 = (j 0).val := by
    unfold ScatterDims.window
    have h : (0 : Fin 2) ∈ (boxSetDims R C R' C' wf).sKept :=
      (show (0 : Fin 2) ∈ (List.finRange 2).filter (· ∉ ([] : List (Fin 2))) by decide)
    rw [dif_pos h]
    rfl
  have hw1 : (boxSetDims R C R' C' wf).window j 1 = (j 1).val := by
    unfold ScatterDims.window
    have h : (1 : Fin 2) ∈ (boxSetDims R C R' C' wf).sKept :=
      (show (1 : Fin 2) ∈ (List.finRange 2).filter (· ∉ ([] : List (Fin 2))) by decide)
    rw [dif_pos h]
    rfl
  unfold ScatterDims.resultIdx?
  have hin : ∀ a, 0 ≤ (boxSetDims R C R' C' wf).start j idx a + (boxSetDims R C R' C' wf).window j a
      ∧ (boxSetDims R C R' C' wf).start j idx a + (boxSetDims R C R' C' wf).window j a < (⟨2, ![R, C]⟩ : Shape).size a := fun a => by
    match a with
    | ⟨0, _⟩ =>
      show 0 ≤ (boxSetDims R C R' C' wf).start j idx 0 + ((boxSetDims R C R' C' wf).window j 0 : Int)
        ∧ (boxSetDims R C R' C' wf).start j idx 0 + ((boxSetDims R C R' C' wf).window j 0 : Int) < (R : Int)
      rw [hs0, hw0]; have := (j 0).isLt
      have h2 : ((⟨2, ![R', C']⟩ : Shape).size 0) = R' := rfl
      omega
    | ⟨1, _⟩ =>
      show 0 ≤ (boxSetDims R C R' C' wf).start j idx 1 + ((boxSetDims R C R' C' wf).window j 1 : Int)
        ∧ (boxSetDims R C R' C' wf).start j idx 1 + ((boxSetDims R C R' C' wf).window j 1 : Int) < (C : Int)
      rw [hs1, hw1]; have := (j 1).isLt
      have h2 : ((⟨2, ![R', C']⟩ : Shape).size 1) = C' := rfl
      omega
  rw [dif_pos hin]
  refine congrArg some (funext fun a => Fin.ext ?_)
  match a with
  | ⟨0, _⟩ =>
    show ((boxSetDims R C R' C' wf).start j idx 0 + ((boxSetDims R C R' C' wf).window j 0 : Int)).toNat = (j 0).val
    rw [hs0, hw0]; simp
  | ⟨1, _⟩ =>
    show ((boxSetDims R C R' C' wf).start j idx 1 + ((boxSetDims R C R' C' wf).window j 1 : Int)).toNat = (j 1).val
    rw [hs1, hw1]; simp

/-- An element inside the box after the set is the update's. -/
theorem boxSet_apply_in {R C R' C' : Nat} (wf : ScatterDims.WF ⟨2, ![R, C]⟩ ⟨1, ![2]⟩ ⟨2, ![R', C']⟩ [0, 1] [] [0, 1] 0)
    (x : (⟨2, ![R, C]⟩ : Shape).Idx → α) (idx : IVec ⟨1, ![2]⟩ w) (upd : (⟨2, ![R', C']⟩ : Shape).Idx → α)
    (h0 : (idx (ix1 (0 : Fin 2))).toInt = 0) (h1 : (idx (ix1 (1 : Fin 2))).toInt = 0) (hR : R' ≤ R) (hC : C' ≤ C)
    (r : Fin R) (c : Fin C) (hr : r.val < R') (hc : c.val < C') :
    Host.scatter (boxSetDims R C R' C' wf) (fun _ b => b) x idx upd (ix2 r c) = upd (ix2 ⟨r.val, hr⟩ ⟨c.val, hc⟩) := by
  refine scatter_set_of_hit _ x idx upd (ix2 r c) (ix2 ⟨r.val, hr⟩ ⟨c.val, hc⟩)
    (boxSet_resultIdx wf idx h0 h1 hR hC _) (fun j hj => ?_)
  rw [boxSet_resultIdx wf idx h0 h1 hR hC j]
  intro e
  apply hj
  have e0 := congrArg Fin.val (congrFun (Option.some.inj e) 0)
  have e1 := congrArg Fin.val (congrFun (Option.some.inj e) 1)
  rw [eq_ix2 j]
  exact congrArg₂ ix2 (Fin.ext e0) (Fin.ext e1)

/-- Every element outside the box is kept, whatever the body. -/
theorem boxSet_apply_out {R C R' C' : Nat} (wf : ScatterDims.WF ⟨2, ![R, C]⟩ ⟨1, ![2]⟩ ⟨2, ![R', C']⟩ [0, 1] [] [0, 1] 0)
    (f : α → α → α) (x : (⟨2, ![R, C]⟩ : Shape).Idx → α) (idx : IVec ⟨1, ![2]⟩ w) (upd : (⟨2, ![R', C']⟩ : Shape).Idx → α)
    (h0 : (idx (ix1 (0 : Fin 2))).toInt = 0) (h1 : (idx (ix1 (1 : Fin 2))).toInt = 0) (hR : R' ≤ R) (hC : C' ≤ C)
    (r : Fin R) (c : Fin C) (h : R' ≤ r.val ∨ C' ≤ c.val) :
    Host.scatter (boxSetDims R C R' C' wf) f x idx upd (ix2 r c) = x (ix2 r c) := by
  refine scatter_of_not_hit _ f x idx upd (ix2 r c) (fun j => ?_)
  rw [boxSet_resultIdx wf idx h0 h1 hR hC j]
  intro e
  have e0 : (j 0).val = r.val := congrArg Fin.val (congrFun (Option.some.inj e) 0)
  have e1 : (j 1).val = c.val := congrArg Fin.val (congrFun (Option.some.inj e) 1)
  have := (j 0).isLt
  have := (j 1).isLt
  have h2 : ((⟨2, ![R', C']⟩ : Shape).size 0) = R' := rfl
  have h3 : ((⟨2, ![R', C']⟩ : Shape).size 1) = C' := rfl
  omega

/-! ## Setting the first entries of one row of a matrix -/

/-- The dimension numbers jax gives `stablehlo.scatter` for `x.at[r₀, :C'].set(v)` on an [R, C] operand: ONE index
    vector [r₀, c₀] (on axis 0 of the scatter indices) that starts both operand axes, the row axis inserted, the
    update's one axis the window over the columns. -/
abbrev rowSetDims (R C C' : Nat) (wf : ScatterDims.WF ⟨2, ![R, C]⟩ ⟨1, ![2]⟩ ⟨1, ![C']⟩ [0] [0] [0, 1] 0) :
    ScatterDims ⟨2, ![R, C]⟩ ⟨1, ![2]⟩ ⟨1, ![C']⟩ where
  updateWindowDims := [0]
  insertedWindowDims := [0]
  scatterDimsToOperandDims := [0, 1]
  indexVectorDim := 0
  wf := wf

/-- Update position `j` (a column) lands on that column of row `r₀`, when the index words read `r₀` and `0`. -/
theorem rowSet_resultIdx {R C C' : Nat} (wf : ScatterDims.WF ⟨2, ![R, C]⟩ ⟨1, ![2]⟩ ⟨1, ![C']⟩ [0] [0] [0, 1] 0)
    (idx : IVec ⟨1, ![2]⟩ w) (r0 : Fin R) (h0 : (idx (ix1 (0 : Fin 2))).toInt = (r0.val : Int))
    (h1 : (idx (ix1 (1 : Fin 2))).toInt = 0) (hC : C' ≤ C) (j : (⟨1, ![C']⟩ : Shape).Idx) :
    (rowSetDims R C C' wf).resultIdx? j idx = some (ix2 r0 ⟨(j 0).val, lt_of_lt_of_le (j 0).isLt hC⟩) := by
  have hm0 : (0 : Fin 2) ∈ ([0, 1] : List (Fin 2)) := by decide
  have hm1 : (1 : Fin 2) ∈ ([0, 1] : List (Fin 2)) := by decide
  have hs0 : (rowSetDims R C C' wf).start j idx 0 = (r0.val : Int) := by
    unfold ScatterDims.start
    rw [dif_pos hm0]
    have hsi : (rowSetDims R C C' wf).siIdx j
        ⟨List.idxOf (0 : Fin 2) (rowSetDims R C C' wf).scatterDimsToOperandDims, List.idxOf_lt_length_iff.2 hm0⟩
        = ix1 (0 : Fin 2) := funext fun b => Fin.ext (by
      match b with
      | ⟨0, _⟩ => rfl)
    rw [hsi]; exact h0
  have hs1 : (rowSetDims R C C' wf).start j idx 1 = 0 := by
    unfold ScatterDims.start
    rw [dif_pos hm1]
    have hsi : (rowSetDims R C C' wf).siIdx j
        ⟨List.idxOf (1 : Fin 2) (rowSetDims R C C' wf).scatterDimsToOperandDims, List.idxOf_lt_length_iff.2 hm1⟩
        = ix1 (1 : Fin 2) := funext fun b => Fin.ext (by
      match b with
      | ⟨0, _⟩ => rfl)
    rw [hsi]; exact h1
  have hw0 : (rowSetDims R C C' wf).window j 0 = 0 := by
    unfold ScatterDims.window
    have h : (0 : Fin 2) ∉ (rowSetDims R C C' wf).sKept :=
      (show (0 : Fin 2) ∉ (List.finRange 2).filter (· ∉ ([0] : List (Fin 2))) by decide)
    rw [dif_neg h]
  have hw1 : (rowSetDims R C C' wf).window j 1 = (j 0).val := by
    unfold ScatterDims.window
    have h : (1 : Fin 2) ∈ (rowSetDims R C C' wf).sKept :=
      (show (1 : Fin 2) ∈ (List.finRange 2).filter (· ∉ ([0] : List (Fin 2))) by decide)
    rw [dif_pos h]
    rfl
  unfold ScatterDims.resultIdx?
  have hin : ∀ a, 0 ≤ (rowSetDims R C C' wf).start j idx a + (rowSetDims R C C' wf).window j a
      ∧ (rowSetDims R C C' wf).start j idx a + (rowSetDims R C C' wf).window j a < (⟨2, ![R, C]⟩ : Shape).size a := fun a => by
    match a with
    | ⟨0, _⟩ =>
      show 0 ≤ (rowSetDims R C C' wf).start j idx 0 + ((rowSetDims R C C' wf).window j 0 : Int)
        ∧ (rowSetDims R C C' wf).start j idx 0 + ((rowSetDims R C C' wf).window j 0 : Int) < (R : Int)
      rw [hs0, hw0]; have := r0.isLt
      omega
    | ⟨1, _⟩ =>
      show 0 ≤ (rowSetDims R C C' wf).start j idx 1 + ((rowSetDims R C C' wf).window j 1 : Int)
        ∧ (rowSetDims R C C' wf).start j idx 1 + ((rowSetDims R C C' wf).window j 1 : Int) < (C : Int)
      rw [hs1, hw1]; have := (j 0).isLt
      have h2 : ((⟨1, ![C']⟩ : Shape).size 0) = C' := rfl
      omega
  rw [dif_pos hin]
  refine congrArg some (funext fun a => Fin.ext ?_)
  match a with
  | ⟨0, _⟩ =>
    show ((rowSetDims R C C' wf).start j idx 0 + ((rowSetDims R C C' wf).window j 0 : Int)).toNat = r0.val
    rw [hs0, hw0]; simp
  | ⟨1, _⟩ =>
    show ((rowSetDims R C C' wf).start j idx 1 + ((rowSetDims R C C' wf).window j 1 : Int)).toNat = (j 0).val
    rw [hs1, hw1]; simp

/-- An entry of row `r₀` below column `C'` after the set is the update's. -/
theorem rowSet_apply_in {R C C' : Nat} (wf : ScatterDims.WF ⟨2, ![R, C]⟩ ⟨1, ![2]⟩ ⟨1, ![C']⟩ [0] [0] [0, 1] 0)
    (x : (⟨2, ![R, C]⟩ : Shape).Idx → α) (idx : IVec ⟨1, ![2]⟩ w) (upd : (⟨1, ![C']⟩ : Shape).Idx → α) (r0 : Fin R)
    (h0 : (idx (ix1 (0 : Fin 2))).toInt = (r0.val : Int)) (h1 : (idx (ix1 (1 : Fin 2))).toInt = 0) (hC : C' ≤ C)
    (c : Fin C) (hc : c.val < C') :
    Host.scatter (rowSetDims R C C' wf) (fun _ b => b) x idx upd (ix2 r0 c) = upd (ix1 ⟨c.val, hc⟩) := by
  refine scatter_set_of_hit _ x idx upd (ix2 r0 c) (ix1 ⟨c.val, hc⟩)
    (rowSet_resultIdx wf idx r0 h0 h1 hC _) (fun j hj => ?_)
  rw [rowSet_resultIdx wf idx r0 h0 h1 hC j]
  intro e
  apply hj
  have e1 := congrArg Fin.val (congrFun (Option.some.inj e) 1)
  rw [eq_ix1 j]
  exact congrArg ix1 (Fin.ext e1)

/-- Every other row, and every entry of row `r₀` from column `C'` on, is kept, whatever the body. -/
theorem rowSet_apply_out {R C C' : Nat} (wf : ScatterDims.WF ⟨2, ![R, C]⟩ ⟨1, ![2]⟩ ⟨1, ![C']⟩ [0] [0] [0, 1] 0)
    (f : α → α → α) (x : (⟨2, ![R, C]⟩ : Shape).Idx → α) (idx : IVec ⟨1, ![2]⟩ w) (upd : (⟨1, ![C']⟩ : Shape).Idx → α)
    (r0 : Fin R) (h0 : (idx (ix1 (0 : Fin 2))).toInt = (r0.val : Int)) (h1 : (idx (ix1 (1 : Fin 2))).toInt = 0)
    (hC : C' ≤ C) (r : Fin R) (c : Fin C) (h : r ≠ r0 ∨ C' ≤ c.val) :
    Host.scatter (rowSetDims R C C' wf) f x idx upd (ix2 r c) = x (ix2 r c) := by
  refine scatter_of_not_hit _ f x idx upd (ix2 r c) (fun j => ?_)
  rw [rowSet_resultIdx wf idx r0 h0 h1 hC j]
  intro e
  have e0 : r0 = r := congrFun (Option.some.inj e) 0
  have e1 : (j 0).val = c.val := congrArg Fin.val (congrFun (Option.some.inj e) 1)
  have := (j 0).isLt
  have h2 : ((⟨1, ![C']⟩ : Shape).size 0) = C' := rfl
  rcases h with h | h
  · exact h e0.symm
  · omega

end Cert.LibScatterWindow

end
-- ==== Proof.KernelHost.lean ====
/-
  The host side of the kernel program, read at one element: the two padded arrays the kernel's windows stage.

  Before the region, the host gathers the embedding rows (`embK`: the take over the vocabulary axis, transposed, plus the
  first bias), lays them into a zero [4096, 256] array and sets column 200 to one; and lays the transposed second weights
  into a zero [256, 50688] array with the second bias as row 200.  At the ideal instance the conversions to bf16 are the
  identity, so entry by entry:
    * `V11_apply` — the padded embedding is `embK` on columns below 200, one on column 200, zero beyond;
    * `V23_apply` — the padded weights are the transposed weights on rows below 200, the bias on row 200, zero on the
      other rows, and zero on every column from 50257 on.
-/
import proofs.«427122_j2345052144357_3_alg».proof.Proof.Gen.KernelIdeal.Frame
import proofs.«427122_j2345052144357_3_alg».proof.Proof.LibScatterSet
import proofs.«427122_j2345052144357_3_alg».proof.Proof.LibScatterWindow
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Pipeline.Value

noncomputable section

namespace Cert.KernelIdeal.HostVal

open Cert.KernelIdeal Cert.KernelIdeal.Gen Idealize.ShloMosaic Idealize.ShloMosaic.TcCoe Idealize.ShloMosaic.ValueIdx
open Cert.LibScatterSet Cert.LibScatterWindow

/-- The gathered, transposed and biased embedding rows as the host computes them: the indices wrapped (a negative one
    moved up by the vocabulary's size), the take over the vocabulary axis of the first weights with the out-of-range
    guard (a row whose index is out of range is filled with the not-a-number word), the transpose to [4096, 200], and
    the first bias added along the rows. -/
def embK {F : FTy → Type} [FloatOps F] (x : (⟨S4096, .i32⟩ : BufTy).Contents (Elt F))
    (aw : (⟨S200x50257, .f32⟩ : BufTy).Contents (Elt F)) (ab : (⟨S200, .f32⟩ : BufTy).Contents (Elt F)) :
    (⟨S4096x200, .f32⟩ : BufTy).Contents (Elt F) :=
  let v0 : (⟨S4096, .i32⟩ : BufTy).Contents (Elt F) := broadcastInDim S4096 ![] bcast_S_S4096 (constantI S_ 32 0#32)
  let v1 : (⟨S4096, .i1⟩ : BufTy).Contents (Elt F) := cmpi .slt x v0
  let v2 : (⟨S4096, .i32⟩ : BufTy).Contents (Elt F) := broadcastInDim S4096 ![] bcast_S_S4096 (constantI S_ 32 50257#32)
  let v3 : (⟨S4096, .i32⟩ : BufTy).Contents (Elt F) := addi x v2
  let v4 : (⟨S4096, .i32⟩ : BufTy).Contents (Elt F) := select v1 v3 x
  let v5 : (⟨S4096x1, .i32⟩ : BufTy).Contents (Elt F) := broadcastInDim S4096x1 ![0] bcast_S4096_S4096x1_0 v4
  let v6 : (⟨S4096x1, .i32⟩ : BufTy).Contents (Elt F) := broadcastInDim S4096x1 ![] bcast_S_S4096x1 (constantI S_ 32 0#32)
  let v7 : (⟨S4096x1, .i1⟩ : BufTy).Contents (Elt F) := cmpi .sge v5 v6
  let v8 : (⟨S1x1, .i32⟩ : BufTy).Contents (Elt F) := broadcastInDim S1x1 ![1] bcast_S1_S1x1_1 (constantI S1 32 50256#32)
  let v9 : (⟨S4096x1, .i32⟩ : BufTy).Contents (Elt F) := broadcastInDim S4096x1 ![0, 1] bcast_S1x1_S4096x1_0_1 v8
  let v10 : (⟨S4096x1, .i1⟩ : BufTy).Contents (Elt F) := cmpi .sle v5 v9
  let v11 : (⟨S4096x1, .i1⟩ : BufTy).Contents (Elt F) := andi v7 v10
  let v12 : (⟨S4096, .i1⟩ : BufTy).Contents (Elt F) := Host.reduce IntOp.andi v11 (constantI S_ 1 1#1) reducesTo_S4096x1_S4096_d1 h_S_
  let v13 : (⟨S200x4096, .f32⟩ : BufTy).Contents (Elt F) := Host.gather gather_S200x50257_S4096x1_S200x4096_0_1_n_n_1_1_2001 aw v5
  let v14 : (⟨S200x4096, .i1⟩ : BufTy).Contents (Elt F) := broadcastInDim S200x4096 ![1] bcast_S4096_S200x4096_1 v12
  let v15 : (⟨S200x4096, .f32⟩ : BufTy).Contents (Elt F) := broadcastInDim S200x4096 ![] bcast_S_S200x4096 (constant S_ .f32 0x7FC00000#32)
  let t0 : (⟨S200x4096, .f32⟩ : BufTy).Contents (Elt F) := select v14 v13 v15
  let t1 : (⟨S4096x200, .f32⟩ : BufTy).Contents (Elt F) := transpose S4096x200 [1, 0] t0 transposes_S200x4096_S4096x200_1_0
  let t2 : (⟨S1x200, .f32⟩ : BufTy).Contents (Elt F) := broadcastInDim S1x200 ![1] bcast_S200_S1x200_1 ab
  let t3 : (⟨S4096x200, .f32⟩ : BufTy).Contents (Elt F) := broadcastInDim S4096x200 ![0, 1] bcast_S1x200_S4096x200_0_1 t2
  addf t1 t3

variable (m : (ℓ : Loc nD τ sig) → Buf (Elt Ideal) ℓ)

attribute [local irreducible] Host.gather Host.reduce Host.scatter in
set_option maxRecDepth 8192 in
set_option maxHeartbeats 1000000 in
/-- The biased embedding rows when the region is entered are `embK` of the three argument arrays. -/
theorem V_v4 (c : Dev nD) : V m c main_v4
    = embK (m ((c : Thread nD τ).loc main_arg0)) (m ((c : Thread nD τ).loc main_arg1)) (m ((c : Thread nD τ).loc main_arg2)) := by
  dsimp only [Gen.V]
  simp only [Gen.hostOps0, Gen.hostOps0_1, List.flatten_cons, List.flatten_nil, List.append_nil, List.cons_append, List.nil_append]
  after_results
  rfl

/-- The f32 word `0x3F800000` is one. -/
theorem ofBits_one_f32 : Ideal.ofBits .f32 0x3F800000#32 = 1 := IdealRules.sign_bit.ideal_onePat .f32

/-- The bf16 word `0x0000` is zero. -/
theorem ofBits_zero_bf16 : Ideal.ofBits .bf16 0x0000#16 = 0 := by simp [Ideal.ofBits, Ideal.ieee]

attribute [local irreducible] Host.gather Host.reduce Host.scatter in
set_option maxRecDepth 8192 in
set_option maxHeartbeats 1000000 in
/-- The padded embedding when the region is entered, as the host's operations compute it: the zero array, its first 200
    columns set to `embK`, its column 200 set to one, converted to bf16. -/
theorem V11_eq (c : Dev nD) : (V m c main_v11 : S4096x256.Idx → EReal)
    = truncf .bf16 (Host.scatter scatter_S4096x256_S1_S4096_0_1_1_0 (fun _ b => b)
        (Host.scatter scatter_S4096x256_S1_S4096x200_01_n_1_0 (fun _ b => b)
          (broadcastInDim S4096x256 ![] bcast_S_S4096x256 (constant (F := Ideal) S_ .f32 0x00000000#32))
          (broadcastInDim S1 ![] bcast_S_S1 (constantI S_ 32 0#32))
          (embK (m ((c : Thread nD τ).loc main_arg0)) (m ((c : Thread nD τ).loc main_arg1)) (m ((c : Thread nD τ).loc main_arg2))))
        (broadcastInDim S1 ![] bcast_S_S1 (constantI S_ 32 200#32))
        (broadcastInDim S4096 ![] bcast_S_S4096 (constant (F := Ideal) S_ .f32 0x3F800000#32))) bitsLt_bf16_f32 := by
  dsimp only [Gen.V]
  simp only [Gen.hostOps0, Gen.hostOps0_1, List.flatten_cons, List.flatten_nil, List.append_nil, List.cons_append, List.nil_append]
  after_results
  rfl

/-- The padded embedding, entry by entry: `embK` on the columns below 200, one on column 200, zero beyond. -/
theorem V11_apply (c : Dev nD) (n : Fin 4096) (k : Fin 256) :
    (V m c main_v11 : S4096x256.Idx → EReal) (ix2 n k)
      = if h : k.val < 200 then
          embK (m ((c : Thread nD τ).loc main_arg0)) (m ((c : Thread nD τ).loc main_arg1)) (m ((c : Thread nD τ).loc main_arg2)) (ix2 n ⟨k.val, h⟩)
        else if k.val = 200 then 1 else 0 := by
  rw [V11_eq, truncf_apply]
  have hd1 : scatter_S4096x256_S1_S4096_0_1_1_0 = colSetDims 4096 256 scatter_S4096x256_S1_S4096_0_1_1_0_wf := rfl
  have hd0 : scatter_S4096x256_S1_S4096x200_01_n_1_0 = colsSetDims 4096 256 200 scatter_S4096x256_S1_S4096x200_01_n_1_0_wf := rfl
  have hi1 : ((broadcastInDim S1 ![] bcast_S_S1 (constantI S_ 32 200#32) : IVec S1 32) (ix1 (0 : Fin 1))).toInt
      = (((⟨200, by decide⟩ : Fin 256)).val : Int) := by decide
  have hi0 : ((broadcastInDim S1 ![] bcast_S_S1 (constantI S_ 32 0#32) : IVec S1 32) (ix1 (0 : Fin 1))).toInt = 0 := by decide
  rw [hd1, hd0]
  by_cases hk : k.val = 200
  · have hk' : k = ⟨200, by decide⟩ := Fin.ext hk
    rw [dif_neg (by omega), if_pos hk, hk', colSet_apply_col _ _ _ _ _ hi1]
    exact ofBits_one_f32
  · rw [colSet_apply_other _ _ _ _ _ _ hi1 n k (fun e => hk (congrArg Fin.val e))]
    by_cases h : k.val < 200
    · rw [dif_pos h, colsSet_apply_in _ _ _ _ hi0 (by decide) n k h]
    · rw [dif_neg h, if_neg hk, colsSet_apply_out _ _ _ _ _ hi0 (by decide) n k (by omega)]
      exact Ideal.ofBits_zero_f32

attribute [local irreducible] Host.gather Host.reduce Host.scatter in
set_option maxRecDepth 8192 in
set_option maxHeartbeats 1000000 in
/-- The padded transposed weights when the region is entered, as the host's operations compute them: the zero array, its
    top-left [200, 50257] box set to the transposed second weights, the first 50257 entries of its row 200 set to the
    second bias, both converted to bf16. -/
theorem V23_eq (c : Dev nD) : (V m c main_v23 : S256x50688.Idx → EReal)
    = Host.scatter scatter_S256x50688_S2_S50257_0_0_01_0 (fun _ b => b)
        (Host.scatter scatter_S256x50688_S2_S200x50257_01_n_01_0 (fun _ b => b)
          (broadcastInDim S256x50688 ![] bcast_S_S256x50688 (constant (F := Ideal) S_ .bf16 0x0000#16))
          (concatenate S2 0 [⟨S1, (broadcastInDim S1 ![] bcast_S_S1 (constantI S_ 32 0#32) : IVec S1 32)⟩,
            ⟨S1, (broadcastInDim S1 ![] bcast_S_S1 (constantI S_ 32 0#32) : IVec S1 32)⟩] concatenates_S1_S1_S2_d0)
          (truncf .bf16 (transpose S200x50257 [1, 0] (m ((c : Thread nD τ).loc main_arg3) : S50257x200.Idx → EReal)
            transposes_S50257x200_S200x50257_1_0) bitsLt_bf16_f32))
        (concatenate S2 0 [⟨S1, (broadcastInDim S1 ![] bcast_S_S1 (constantI S_ 32 200#32) : IVec S1 32)⟩,
          ⟨S1, (broadcastInDim S1 ![] bcast_S_S1 (constantI S_ 32 0#32) : IVec S1 32)⟩] concatenates_S1_S1_S2_d0)
        (truncf .bf16 (m ((c : Thread nD τ).loc main_arg4) : S50257.Idx → EReal) bitsLt_bf16_f32) := by
  dsimp only [Gen.V]
  simp only [Gen.hostOps0, Gen.hostOps0_1, List.flatten_cons, List.flatten_nil, List.append_nil, List.cons_append, List.nil_append]
  after_results

/-- A two-word index vector reads its first word at position 0. -/
theorem pair_ix0 (a b : IVec S1 32) :
    (concatenate S2 0 [⟨S1, a⟩, ⟨S1, b⟩] concatenates_S1_S1_S2_d0 : IVec S2 32) (ix1 (0 : Fin 2)) = a (ix1 (0 : Fin 1)) :=
  concatenate_pair_apply_left (0 : Fin S2.rank) a b concatenates_S1_S1_S2_d0 (ix1 (0 : Fin 2)) rfl (ix1 (0 : Fin 1))
    (fun b => by match b with | ⟨0, _⟩ => rfl)

/-- A two-word index vector reads its second word at position 1. -/
theorem pair_ix1 (a b : IVec S1 32) :
    (concatenate S2 0 [⟨S1, a⟩, ⟨S1, b⟩] concatenates_S1_S1_S2_d0 : IVec S2 32) (ix1 (1 : Fin 2)) = b (ix1 (0 : Fin 1)) :=
  concatenate_pair_apply_right (0 : Fin S2.rank) a b concatenates_S1_S1_S2_d0 (ix1 (1 : Fin 2)) rfl rfl (ix1 (0 : Fin 1))
    (fun b hb => by match b with | ⟨0, _⟩ => exact absurd rfl hb) rfl

/-- The padded transposed weights, entry by entry: below column 50257 the transposed weights on the rows below 200, the
    bias on row 200 and zero on the other rows; zero on every column from 50257 on. -/
theorem V23_apply (c : Dev nD) (k : Fin 256) (v : Fin 50688) :
    (V m c main_v23 : S256x50688.Idx → EReal) (ix2 k v)
      = ((if hv : v.val < 50257 then
          (if hk : k.val < 200 then (m ((c : Thread nD τ).loc main_arg3) : S50257x200.Idx → EReal) (ix2 ⟨v.val, hv⟩ ⟨k.val, hk⟩)
           else if k.val = 200 then (m ((c : Thread nD τ).loc main_arg4) : S50257.Idx → EReal) (ix1 ⟨v.val, hv⟩) else 0)
        else 0) : EReal) := by
  rw [V23_eq]
  have hd1 : scatter_S256x50688_S2_S50257_0_0_01_0 = rowSetDims 256 50688 50257 scatter_S256x50688_S2_S50257_0_0_01_0_wf := rfl
  have hd0 : scatter_S256x50688_S2_S200x50257_01_n_01_0
      = boxSetDims 256 50688 200 50257 scatter_S256x50688_S2_S200x50257_01_n_01_0_wf := rfl
  have hc200 : ((broadcastInDim S1 ![] bcast_S_S1 (constantI S_ 32 200#32) : IVec S1 32) (ix1 (0 : Fin 1))).toInt
      = (((⟨200, by decide⟩ : Fin 256)).val : Int) := by decide
  have hc0 : ((broadcastInDim S1 ![] bcast_S_S1 (constantI S_ 32 0#32) : IVec S1 32) (ix1 (0 : Fin 1))).toInt = 0 := by decide
  rw [hd1, hd0]
  by_cases hin : k.val = 200 ∧ v.val < 50257
  · obtain ⟨hk, hv⟩ := hin
    have hk' : k = ⟨200, by decide⟩ := Fin.ext hk
    rw [dif_pos hv, dif_neg (by omega), if_pos hk, hk',
      rowSet_apply_in _ _ _ _ ⟨200, by decide⟩ ((congrArg BitVec.toInt (pair_ix0 _ _)).trans hc200)
        ((congrArg BitVec.toInt (pair_ix1 _ _)).trans hc0) (by decide) v hv, truncf_apply]
  · rw [rowSet_apply_out _ _ _ _ _ ⟨200, by decide⟩ ((congrArg BitVec.toInt (pair_ix0 _ _)).trans hc200)
        ((congrArg BitVec.toInt (pair_ix1 _ _)).trans hc0) (by decide) k v
        (by
          by_cases hk : k.val = 200
          · exact Or.inr (by omega)
          · exact Or.inl (fun e => hk (congrArg Fin.val e)))]
    by_cases hbox : k.val < 200 ∧ v.val < 50257
    · obtain ⟨hk, hv⟩ := hbox
      rw [dif_pos hv, dif_pos hk,
        boxSet_apply_in _ _ _ _ ((congrArg BitVec.toInt (pair_ix0 _ _)).trans hc0)
          ((congrArg BitVec.toInt (pair_ix1 _ _)).trans hc0) (by decide) (by decide) k v hk hv,
        truncf_apply, transpose_ix2_apply]
    · rw [boxSet_apply_out _ _ _ _ _ ((congrArg BitVec.toInt (pair_ix0 _ _)).trans hc0)
          ((congrArg BitVec.toInt (pair_ix1 _ _)).trans hc0) (by decide) (by decide) k v (by omega)]
      have hz : (broadcastInDim S256x50688 ![] bcast_S_S256x50688 (constant (F := Ideal) S_ .bf16 0x0000#16) : S256x50688.Idx → EReal)
          (ix2 k v) = 0 := ofBits_zero_bf16
      rw [hz]
      by_cases hv : v.val < 50257
      · rw [dif_pos hv, dif_neg (by omega), if_neg (by omega)]
      · rw [dif_neg hv]

end Cert.KernelIdeal.HostVal

end
-- ==== Proof.RefRun.lean ====
/-
  The reference program's run.

  @main is a straight line of 45 host operations once its one call is inlined: the 23 of the embedding lookup (a
  negative index wrapped once by the table's width, the range test, the gather of the table's columns, the fill value
  where an index is out of range), then the transpose and the first bias (together the embedding rows `emb`), the
  contraction with the second weights and the second bias (the logits), and the softmax down axis 0: the maximum over
  the rows, the shifted exponentials, their sum over the rows, the quotient (`out`). Every weakly fair execution
  terminates with the result buffer at `out (emb x A_w A_b) B_w B_b` of the argument arrays, the arguments unchanged.
-/
import proofs.«427122_j2345052144357_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, the calls unfolded: the index normalisation and gather of the
    embedding lookup (twenty-three operations: the comparison with zero, the wrapped index, the select between
    them, the range test folded over the unit axis, the gather, the fill value and the select), then the
    twenty-two of the body (transpose, bias, product with the output weights, bias, and the softmax over
    axis 0: maximum, subtraction, exponential, sum, quotient). -/
abbrev ops : List (HloOp τ sig (Elt F)) :=
  [ StableHlo.TRef.nullary main_call0.c (constantI S_ 32 0#32),
    StableHlo.TRef.unary main_call0.c main_call0.v0 (broadcastInDim S4096 ![] bcast_S_S4096),
    StableHlo.TRef.binary (.of main_arg0 : StableHlo.TRef sig ⟨S4096, .i32⟩) main_call0.v0 main_call0.v1 (cmpi .slt),
    StableHlo.TRef.nullary main_call0.c_0 (constantI S_ 32 50257#32),
    StableHlo.TRef.unary main_call0.c_0 main_call0.v2 (broadcastInDim S4096 ![] bcast_S_S4096),
    StableHlo.TRef.binary (.of main_arg0 : StableHlo.TRef sig ⟨S4096, .i32⟩) main_call0.v2 main_call0.v3 addi,
    StableHlo.TRef.ternary main_call0.v1 main_call0.v3 (.of main_arg0 : StableHlo.TRef sig ⟨S4096, .i32⟩) main_call0.call0.v0 select,
    StableHlo.TRef.unary main_call0.call0.v0 main_call0.v5 (broadcastInDim S4096x1 ![0] bcast_S4096_S4096x1_0),
    StableHlo.TRef.nullary main_call0.c_1 (constantI S1 32 50256#32),
    StableHlo.TRef.nullary main_call0.c_2 (constantI S_ 32 0#32),
    StableHlo.TRef.unary main_call0.c_2 main_call0.v6 (broadcastInDim S4096x1 ![] bcast_S_S4096x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S4096x1 ![0, 1] bcast_S1x1_S4096x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x1_S4096_d1 h_S_),
    StableHlo.TRef.binary (.of main_arg1 : StableHlo.TRef sig ⟨S200x50257, .f32⟩) main_call0.v5 main_call0.v13 (fun x i => Host.gather gather_S200x50257_S4096x1_S200x4096_0_1_n_n_1_1_2001 x i),
    StableHlo.TRef.unary main_call0.v12 main_call0.v14 (broadcastInDim S200x4096 ![1] bcast_S4096_S200x4096_1),
    StableHlo.TRef.nullary main_call0.cst (constant S_ .f32 0x7FC00000#32),
    StableHlo.TRef.unary main_call0.cst main_call0.v15 (broadcastInDim S200x4096 ![] bcast_S_S200x4096),
    StableHlo.TRef.ternary main_call0.v14 main_call0.v13 main_call0.v15 main_call0.v16 select,
    StableHlo.unary main_v0 main_v1 ((transpose S4096x200 [1, 0] · transposes_S200x4096_S4096x200_1_0) : (⟨S200x4096, .f32⟩ : BufTy).Contents (Elt F) → (⟨S4096x200, .f32⟩ : BufTy).Contents (Elt F)),
    StableHlo.unary main_arg2 main_v2 (broadcastInDim S1x200 ![1] bcast_S200_S1x200_1 : (⟨S200, .f32⟩ : BufTy).Contents (Elt F) → (⟨S1x200, .f32⟩ : BufTy).Contents (Elt F)),
    StableHlo.unary main_v2 main_v3 (broadcastInDim S4096x200 ![0, 1] bcast_S1x200_S4096x200_0_1 : (⟨S1x200, .f32⟩ : BufTy).Contents (Elt F) → (⟨S4096x200, .f32⟩ : BufTy).Contents (Elt F)),
    StableHlo.binary main_v1 main_v3 main_v4 (addf : (⟨S4096x200, .f32⟩ : BufTy).Contents (Elt F) → (⟨S4096x200, .f32⟩ : BufTy).Contents (Elt F) → (⟨S4096x200, .f32⟩ : BufTy).Contents (Elt F)),
    StableHlo.binary main_v4 main_arg3 main_v5 ((fun l r => Host.dotGeneral dot_S4096x200_S50257x200_S4096x50257_1_1_0_0_n_n none l r) : (⟨S4096x200, .f32⟩ : BufTy).Contents (Elt F) → (⟨S50257x200, .f32⟩ : BufTy).Contents (Elt F) → (⟨S4096x50257, .f32⟩ : BufTy).Contents (Elt F)),
    StableHlo.unary main_arg4 main_v6 (broadcastInDim S1x50257 ![1] bcast_S50257_S1x50257_1 : (⟨S50257, .f32⟩ : BufTy).Contents (Elt F) → (⟨S1x50257, .f32⟩ : BufTy).Contents (Elt F)),
    StableHlo.unary main_v6 main_v7 (broadcastInDim S4096x50257 ![0, 1] bcast_S1x50257_S4096x50257_0_1 : (⟨S1x50257, .f32⟩ : BufTy).Contents (Elt F) → (⟨S4096x50257, .f32⟩ : BufTy).Contents (Elt F)),
    StableHlo.binary main_v5 main_v7 main_v8 (addf : (⟨S4096x50257, .f32⟩ : BufTy).Contents (Elt F) → (⟨S4096x50257, .f32⟩ : BufTy).Contents (Elt F) → (⟨S4096x50257, .f32⟩ : BufTy).Contents (Elt F)),
    StableHlo.nullary main_cst (constant S_ .f32 0xFF800000#32),
    StableHlo.binary main_v8 main_cst main_v9 ((fun x v => Host.reduce FloatOps.maximumf x v reducesTo_S4096x50257_S50257_d0 h_S_) : (⟨S4096x50257, .f32⟩ : BufTy).Contents (Elt F) → (⟨S_, .f32⟩ : BufTy).Contents (Elt F) → (⟨S50257, .f32⟩ : BufTy).Contents (Elt F)),
    StableHlo.nullary main_cst_0 (constant S_ .f32 0xFF800000#32),
    StableHlo.unary main_cst_0 main_v10 (broadcastInDim S50257 ![] bcast_S_S50257 : (⟨S_, .f32⟩ : BufTy).Contents (Elt F) → (⟨S50257, .f32⟩ : BufTy).Contents (Elt F)),
    StableHlo.binary main_v10 main_v9 main_v11 (maximumf : (⟨S50257, .f32⟩ : BufTy).Contents (Elt F) → (⟨S50257, .f32⟩ : BufTy).Contents (Elt F) → (⟨S50257, .f32⟩ : BufTy).Contents (Elt F)),
    StableHlo.unary main_v11 main_v12 (broadcastInDim S1x50257 ![1] bcast_S50257_S1x50257_1 : (⟨S50257, .f32⟩ : BufTy).Contents (Elt F) → (⟨S1x50257, .f32⟩ : BufTy).Contents (Elt F)),
    StableHlo.unary main_v12 main_v13 (broadcastInDim S4096x50257 ![0, 1] bcast_S1x50257_S4096x50257_0_1 : (⟨S1x50257, .f32⟩ : BufTy).Contents (Elt F) → (⟨S4096x50257, .f32⟩ : BufTy).Contents (Elt F)),
    StableHlo.binary main_v8 main_v13 main_v14 (subf : (⟨S4096x50257, .f32⟩ : BufTy).Contents (Elt F) → (⟨S4096x50257, .f32⟩ : BufTy).Contents (Elt F) → (⟨S4096x50257, .f32⟩ : BufTy).Contents (Elt F)),
    StableHlo.unary main_v14 main_v15 (Host.exp : (⟨S4096x50257, .f32⟩ : BufTy).Contents (Elt F) → (⟨S4096x50257, .f32⟩ : BufTy).Contents (Elt F)),
    StableHlo.nullary main_cst_1 (constant S_ .f32 0x00000000#32),
    StableHlo.binary main_v15 main_cst_1 main_v16 ((fun x v => Host.reduceAdd x v reducesTo_S4096x50257_S50257_d0 h_S_) : (⟨S4096x50257, .f32⟩ : BufTy).Contents (Elt F) → (⟨S_, .f32⟩ : BufTy).Contents (Elt F) → (⟨S50257, .f32⟩ : BufTy).Contents (Elt F)),
    StableHlo.unary main_v16 main_v17 (broadcastInDim S1x50257 ![1] bcast_S50257_S1x50257_1 : (⟨S50257, .f32⟩ : BufTy).Contents (Elt F) → (⟨S1x50257, .f32⟩ : BufTy).Contents (Elt F)),
    StableHlo.unary main_v17 main_v18 (broadcastInDim S4096x50257 ![0, 1] bcast_S1x50257_S4096x50257_0_1 : (⟨S1x50257, .f32⟩ : BufTy).Contents (Elt F) → (⟨S4096x50257, .f32⟩ : BufTy).Contents (Elt F)),
    StableHlo.binary main_v15 main_v18 main_v19 (Host.divf : (⟨S4096x50257, .f32⟩ : BufTy).Contents (Elt F) → (⟨S4096x50257, .f32⟩ : BufTy).Contents (Elt F) → (⟨S4096x50257, .f32⟩ : BufTy).Contents (Elt F)) ]

set_option maxRecDepth 1024 in
/-- The program is that straight line: the two callees' definitions unfolded at their calls and the records
    at their fields, both sides are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- The lookup index as the gather reads it: a negative index wrapped once by the table's width, then given a
    unit trailing axis. -/
def idx (x : (⟨S4096, .i32⟩ : BufTy).Contents (Elt F)) : (⟨S4096x1, .i32⟩ : BufTy).Contents (Elt F) :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 50257#32))) x)

/-- Whether each wrapped index lies in the table's range `0 ≤ i ≤ 50256`: the two comparisons, their
    conjunction, folded over the unit axis. -/
def inRange (i : (⟨S4096x1, .i32⟩ : BufTy).Contents (Elt F)) : (⟨S4096, .i1⟩ : BufTy).Contents (Elt F) :=
  Host.reduce IntOp.andi
    (andi (cmpi .sge i (broadcastInDim S4096x1 ![] bcast_S_S4096x1 (constantI S_ 32 0#32)))
      (cmpi .sle i (broadcastInDim S4096x1 ![0, 1] bcast_S1x1_S4096x1_0_1
        (broadcastInDim S1x1 ![1] bcast_S1_S1x1_1 (constantI S1 32 50256#32)))))
    (constantI S_ 1 1#1) reducesTo_S4096x1_S4096_d1 h_S_

/-- The gathered, transposed and biased embedding rows: the columns of the table `aw` at the wrapped indices
    (the fill value where an index is out of range), transposed to one row per index, plus the bias `ab`
    along each row. -/
def emb (x : (⟨S4096, .i32⟩ : BufTy).Contents (Elt F)) (aw : (⟨S200x50257, .f32⟩ : BufTy).Contents (Elt F))
    (ab : (⟨S200, .f32⟩ : BufTy).Contents (Elt F)) : (⟨S4096x200, .f32⟩ : BufTy).Contents (Elt F) :=
  addf
    (transpose S4096x200 [1, 0]
      (select (broadcastInDim S200x4096 ![1] bcast_S4096_S200x4096_1 (inRange (idx x)))
        (Host.gather gather_S200x50257_S4096x1_S200x4096_0_1_n_n_1_1_2001 aw (idx x))
        (broadcastInDim S200x4096 ![] bcast_S_S200x4096 (constant S_ .f32 0x7FC00000#32)))
      transposes_S200x4096_S4096x200_1_0)
    (broadcastInDim S4096x200 ![0, 1] bcast_S1x200_S4096x200_0_1 (broadcastInDim S1x200 ![1] bcast_S200_S1x200_1 ab))

/-- The scores: the rows `e` against the rows of `bw` (contraction over the shared axis of length 200), plus the
    bias `bb` along each row. -/
def logits (e : (⟨S4096x200, .f32⟩ : BufTy).Contents (Elt F)) (bw : (⟨S50257x200, .f32⟩ : BufTy).Contents (Elt F))
    (bb : (⟨S50257, .f32⟩ : BufTy).Contents (Elt F)) : (⟨S4096x50257, .f32⟩ : BufTy).Contents (Elt F) :=
  addf (Host.dotGeneral dot_S4096x200_S50257x200_S4096x50257_1_1_0_0_n_n none e bw)
    (broadcastInDim S4096x50257 ![0, 1] bcast_S1x50257_S4096x50257_0_1 (broadcastInDim S1x50257 ![1] bcast_S50257_S1x50257_1 bb))

/-- A vector over the columns repeated down the 4096 rows. -/
def rows (v : (⟨S50257, .f32⟩ : BufTy).Contents (Elt F)) : (⟨S4096x50257, .f32⟩ : BufTy).Contents (Elt F) :=
  broadcastInDim S4096x50257 ![0, 1] bcast_S1x50257_S4096x50257_0_1 (broadcastInDim S1x50257 ![1] bcast_S50257_S1x50257_1 v)

/-- Each column's maximum over axis 0, taken once more against minus infinity. -/
def colMaxV (l : (⟨S4096x50257, .f32⟩ : BufTy).Contents (Elt F)) : (⟨S50257, .f32⟩ : BufTy).Contents (Elt F) :=
  maximumf (broadcastInDim S50257 ![] bcast_S_S50257 (constant S_ .f32 0xFF800000#32))
    (Host.reduce FloatOps.maximumf l (constant S_ .f32 0xFF800000#32) reducesTo_S4096x50257_S50257_d0 h_S_)

/-- The exponential of the scores less their column's maximum. -/
def expShift (l : (⟨S4096x50257, .f32⟩ : BufTy).Contents (Elt F)) : (⟨S4096x50257, .f32⟩ : BufTy).Contents (Elt F) :=
  Host.exp (subf l (rows (colMaxV l)))

/-- The softmax over axis 0 of the scores: the shifted exponentials over their column sums. -/
def softmax0 (l : (⟨S4096x50257, .f32⟩ : BufTy).Contents (Elt F)) : (⟨S4096x50257, .f32⟩ : BufTy).Contents (Elt F) :=
  Host.divf (expShift l)
    (rows (Host.reduceAdd (expShift l) (constant S_ .f32 0x00000000#32) reducesTo_S4096x50257_S50257_d0 h_S_))

/-- The rest of the body as one term of the embedding rows and the two weight arrays: the product with `bw`, the
    bias, then over axis 0 the maximum, the exponential of the difference, the sum and the quotient. -/
def out (e : (⟨S4096x200, .f32⟩ : BufTy).Contents (Elt F)) (bw : (⟨S50257x200, .f32⟩ : BufTy).Contents (Elt F))
    (bb : (⟨S50257, .f32⟩ : BufTy).Contents (Elt F)) : (⟨S4096x50257, .f32⟩ : BufTy).Contents (Elt F) :=
  softmax0 (logits e bw bb)

attribute [local irreducible] Host.gather Host.reduce Host.reduceAdd in
set_option maxRecDepth 8192 in
/-- The fold of the operations at the result buffer is `out` of `emb` of the argument buffers: each
    operation's result at its own buffer is its function's value and at any other buffer what was there, and
    the composed term is the definitions' by computation (the typed references' transports are the identity at
    literal references). The gather, the two reductions and the contraction stay folded meanwhile: the equation
    never looks inside them. -/
theorem out_eq (V : Valuation τ sig (Elt F)) : after ops V (main_v19 : DevRef τ sig) =
    out (emb (V (main_arg0 : DevRef τ sig)) (V (main_arg1 : DevRef τ sig)) (V (main_arg2 : DevRef τ sig)))
      (V (main_arg3 : DevRef τ sig)) (V (main_arg4 : DevRef τ sig)) := by
  after_results_simp
  rfl

/-- No operation writes an argument buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On every device, for any float values, from any memory with zero counters: every weakly fair execution of
    the reference terminates with the result buffer at `out (emb x aw ab) bw bb` of the five arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = out (emb (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v19).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefValue.lean ====
/-
  The reference's result read at one index.

  At row `n` and column `v` the result is the column softmax (Proof/ColSoftmax.lean), at `n`, of the logits
  `fun n' => (∑ k : Fin 200, e (n', k) * B_w (v, k)) + B_b v`: the contraction is that sum over the shared axis, the two
  broadcasts along the rows read the vector at the column, the maximum over axis 0 is the fold of `max` from -∞ down the
  column (a further maximum with -∞ changes nothing), and the sum over axis 0 is the sum down the column from zero.
-/
import proofs.«427122_j2345052144357_3_alg».proof.Proof.RefRun
import proofs.«427122_j2345052144357_3_alg».proof.Proof.ColSoftmax
import Idealize.ShloMosaic.Lib.ValueIdx
import Idealize.ShloMosaic.Lib.ValueLayout
import Idealize.ShloMosaic.Lib.KernelVsHost
import Idealize.ShloMosaic.PureOps.Ideal.Laws

noncomputable section

namespace Cert.ReferenceIdeal.RefVal

open Cert.ReferenceIdeal Cert.ReferenceIdeal.Gen Cert.ReferenceIdeal.RefRun Idealize.ShloMosaic Idealize.ShloMosaic.ValueIdx
open scoped BigOperators

/-! ## The contraction read at an index

The product contracts axis 1 of the rows with axis 1 of the weights; the result's axis 0 is the rows' axis 0 and its
axis 1 the weights' axis 0. One fact per operand axis, for any contraction index. -/

theorem lhs_0 (i : S4096x50257.Idx) (q : dot_S4096x200_S50257x200_S4096x50257_1_1_0_0_n_n.contr.Idx) :
    (dot_S4096x200_S50257x200_S4096x50257_1_1_0_0_n_n.lhsIdx i q 0).val = (i 0).val := by
  unfold DotDims.lhsIdx
  rw [dif_neg (show ¬(0 : Fin S4096x200.rank) ∈ dot_S4096x200_S50257x200_S4096x50257_1_1_0_0_n_n.lhsBatch by decide),
    dif_pos (show (0 : Fin S4096x200.rank) ∈ dot_S4096x200_S50257x200_S4096x50257_1_1_0_0_n_n.lhsNonContracting by decide)]
  rfl

theorem lhs_1 (i : S4096x50257.Idx) (q : dot_S4096x200_S50257x200_S4096x50257_1_1_0_0_n_n.contr.Idx) :
    (dot_S4096x200_S50257x200_S4096x50257_1_1_0_0_n_n.lhsIdx i q 1).val = (q ⟨0, by decide⟩).val :=
  dot_S4096x200_S50257x200_S4096x50257_1_1_0_0_n_n.lhsIdx_val_of_single rfl i q

theorem rhs_0 (i : S4096x50257.Idx) (q : dot_S4096x200_S50257x200_S4096x50257_1_1_0_0_n_n.contr.Idx) :
    (dot_S4096x200_S50257x200_S4096x50257_1_1_0_0_n_n.rhsIdx i q 0).val = (i 1).val := by
  unfold DotDims.rhsIdx
  rw [dif_neg (show ¬(0 : Fin S50257x200.rank) ∈ dot_S4096x200_S50257x200_S4096x50257_1_1_0_0_n_n.rhsBatch by decide),
    dif_pos (show (0 : Fin S50257x200.rank) ∈ dot_S4096x200_S50257x200_S4096x50257_1_1_0_0_n_n.rhsNonContracting by decide)]
  rfl

theorem rhs_1 (i : S4096x50257.Idx) (q : dot_S4096x200_S50257x200_S4096x50257_1_1_0_0_n_n.contr.Idx) :
    (dot_S4096x200_S50257x200_S4096x50257_1_1_0_0_n_n.rhsIdx i q 1).val = (q ⟨0, by decide⟩).val :=
  dot_S4096x200_S50257x200_S4096x50257_1_1_0_0_n_n.rhsIdx_val_of_single rfl i q

/-- At the ideal values the product read at (n, v) is the dot product of row `n` of `e` with row `v` of `bw`. -/
theorem dot_apply (e : FVec Ideal S4096x200 .f32) (bw : FVec Ideal S50257x200 .f32) (n : Fin 4096) (v : Fin 50257) :
    Host.dotGeneral (F := Ideal) dot_S4096x200_S50257x200_S4096x50257_1_1_0_0_n_n none e bw (ix2 n v) = ∑ k : Fin 200, e (ix2 n k) * bw (ix2 v k) := by
  simp only [Host.dotGeneral]
  rw [Ideal.dotGeneral_apply, ← Equiv.sum_comp (contrEquiv1 dot_S4096x200_S50257x200_S4096x50257_1_1_0_0_n_n 200 rfl rfl).symm]
  refine Finset.sum_congr rfl fun k _ => ?_
  have hk := contrEquiv1_symm_val dot_S4096x200_S50257x200_S4096x50257_1_1_0_0_n_n 200 rfl rfl k
  have el : dot_S4096x200_S50257x200_S4096x50257_1_1_0_0_n_n.lhsIdx (ix2 n v) ((contrEquiv1 dot_S4096x200_S50257x200_S4096x50257_1_1_0_0_n_n 200 rfl rfl).symm k) = ix2 n k :=
    funext fun a => Fin.ext (by
      match a with
      | ⟨0, _⟩ => exact lhs_0 _ _
      | ⟨1, _⟩ => exact (lhs_1 _ _).trans hk)
  have er : dot_S4096x200_S50257x200_S4096x50257_1_1_0_0_n_n.rhsIdx (ix2 n v) ((contrEquiv1 dot_S4096x200_S50257x200_S4096x50257_1_1_0_0_n_n 200 rfl rfl).symm k) = ix2 v k :=
    funext fun a => Fin.ext (by
      match a with
      | ⟨0, _⟩ => exact rhs_0 _ _
      | ⟨1, _⟩ => exact (rhs_1 _ _).trans hk)
  rw [el, er]

/-! ## A vector over the columns laid along every row -/

/-- The vector made a one-row matrix and broadcast down the rows, read at (n, v), is the vector at `v`. -/
theorem rows_apply (x : FVec Ideal S50257 .f32) (n : Fin 4096) (v : Fin 50257) :
    rows (F := Ideal) x (ix2 n v) = x (ix1 v) := by
  unfold rows
  rw [broadcastInDim_oneRow_apply]
  refine broadcastInDim_apply ![1] _ x (ix2 (0 : Fin 1) v) (ix1 v) ?_
  intro a
  fin_cases a
  show v.val = if (50257 : ℕ) = 1 then 0 else v.val
  rw [if_neg (by decide)]

/-- The scores at (n, v): the dot product of row `n` of `e` with row `v` of `bw`, plus the bias at `v`. -/
theorem logits_apply (e : FVec Ideal S4096x200 .f32) (bw : FVec Ideal S50257x200 .f32) (bb : FVec Ideal S50257 .f32)
    (n : Fin 4096) (v : Fin 50257) :
    logits (F := Ideal) e bw bb (ix2 n v) = (∑ k : Fin 200, e (ix2 n k) * bw (ix2 v k)) + bb (ix1 v) := by
  unfold logits
  rw [addf_apply, dot_apply]
  exact congrArg (_ + ·) (rows_apply bb n v)

/-! ## The reductions over axis 0 -/

/-- The reduced index `v` with row `k` put back is (k, v). -/
theorem lift_ix2 (h : S4096x50257.Reduces [0] S50257) (v : Fin 50257) (k : Fin (S4096x50257.size 0)) (n : Fin 4096)
    (hn : k.val = n.val) : h.lift (ix1 v) k = ix2 n v := by
  funext c; apply Fin.ext
  fin_cases c
  · exact hn
  · rfl

/-- A fold over `Fin N` re-indexed along `N = M`. -/
theorem fold_fin_cast {α : Type} (op : α → α → α) [Std.Commutative op] [Std.Associative op] (b : α) {N M : Nat} (h : N = M)
    (f : Fin N → α) :
    (Finset.univ : Finset (Fin N)).fold op b f = (Finset.univ : Finset (Fin M)).fold op b fun k => f (Fin.cast h.symm k) := by
  subst h; rfl

/-- A sum over `Fin N` re-indexed along `N = M`. -/
theorem sum_fin_cast {N M : Nat} (h : N = M) (f : Fin N → EReal) :
    ∑ k : Fin N, f k = ∑ k : Fin M, f (Fin.cast h.symm k) := by
  subst h; rfl

/-- The extent of axis 0 of the scores. -/
theorem size0 : S4096x50257.size 0 = 4096 := rfl

/-- From minus infinity the maximum over axis 0, at column `v`, is the fold of `max` down the column. -/
theorem reduceMax_apply (l : FVec Ideal S4096x50257 .f32) (v : Fin 50257) :
    Host.reduce FloatOps.maximumf l (constant (F := Ideal) S_ .f32 0xFF800000#32) reducesTo_S4096x50257_S50257_d0 h_S_ (ix1 v)
      = Cert.ColSoftmax.colMax (fun n : Fin 4096 => l (ix2 n v)) := by
  have hR : S4096x50257.Reduces [0] S50257 := by decide
  rw [Host.reduce_eq_fold_single FloatOps.maximumf l _ reducesTo_S4096x50257_S50257_d0 hR h_S_]
  refine (fold_fin_cast FloatOps.maximumf _ size0 _).trans ?_
  have hf : (fun k : Fin 4096 => (l ∘ hR.lift (ix1 v)) (Fin.cast size0.symm k)) = fun n : Fin 4096 => l (ix2 n v) :=
    funext fun k => congrArg l (lift_ix2 hR v _ k rfl)
  unfold Cert.ColSoftmax.colMax
  exact congrArg (fun f => Finset.fold max (Ideal.ofBits .f32 0xFF800000#32) f (Finset.univ : Finset (Fin 4096))) hf

/-- Column `v`'s maximum, taken once more against minus infinity, is the fold of `max` from minus infinity down the
    column. -/
theorem colMaxV_apply (l : FVec Ideal S4096x50257 .f32) (v : Fin 50257) :
    colMaxV (F := Ideal) l (ix1 v) = Cert.ColSoftmax.colMax (fun n : Fin 4096 => l (ix2 n v)) := by
  unfold colMaxV
  rw [maximumf_apply, reduceMax_apply]
  exact Cert.ColSoftmax.max_bot_left _

/-- The shifted exponential at (n, v). -/
theorem expShift_apply (l : FVec Ideal S4096x50257 .f32) (n : Fin 4096) (v : Fin 50257) :
    expShift (F := Ideal) l (ix2 n v)
      = Ideal.exp (l (ix2 n v) - Cert.ColSoftmax.colMax (fun n' : Fin 4096 => l (ix2 n' v))) := by
  unfold expShift Host.exp
  simp only [Ideal.hostUnary_exp_def]
  rw [subf_apply, rows_apply, colMaxV_apply]

/-- The sum over axis 0 from zero, at column `v`, is the sum down the column. -/
theorem colSum_apply (x : FVec Ideal S4096x50257 .f32) (v : Fin 50257) :
    Host.reduceAdd (F := Ideal) x (constant S_ .f32 0x00000000#32) reducesTo_S4096x50257_S50257_d0 h_S_ (ix1 v)
      = ∑ n : Fin 4096, x (ix2 n v) := by
  unfold Host.reduceAdd
  have hR : S4096x50257.Reduces [0] S50257 := by decide
  rw [Ideal.hostReduceAdd_def, Ideal.hostReduceAdd_single reducesTo_S4096x50257_S50257_d0 hR]
  show Ideal.ofBits .f32 0x00000000#32 + _ = _
  rw [Ideal.ofBits_zero_f32, zero_add]
  refine (sum_fin_cast size0 _).trans ?_
  exact Finset.sum_congr rfl fun n _ => congrArg x (lift_ix2 hR v _ n rfl)

/-- The softmax over axis 0 at (n, v) is the column softmax of column `v` at `n`. -/
theorem softmax0_apply (l : FVec Ideal S4096x50257 .f32) (n : Fin 4096) (v : Fin 50257) :
    softmax0 (F := Ideal) l (ix2 n v) = Cert.ColSoftmax.colSoftmax (fun n' : Fin 4096 => l (ix2 n' v)) n := by
  unfold softmax0 Host.divf
  simp only [Ideal.hostDivf_def]
  rw [rows_apply, colSum_apply, expShift_apply]
  unfold Cert.ColSoftmax.colSoftmax
  exact congrArg (Ideal.div _) (Finset.sum_congr rfl fun n' _ => expShift_apply l n' v)

/-- The reference's result at (n, v): the softmax down column `v` of the scores, at row `n`. -/
theorem out_apply (e : FVec Ideal S4096x200 .f32) (bw : FVec Ideal S50257x200 .f32) (bb : FVec Ideal S50257 .f32)
    (n : Fin 4096) (v : Fin 50257) :
    out (F := Ideal) e bw bb (ix2 n v)
      = Cert.ColSoftmax.colSoftmax (fun n' : Fin 4096 => (∑ k : Fin 200, e (ix2 n' k) * bw (ix2 v k)) + bb (ix1 v)) n := by
  unfold out
  rw [softmax0_apply]
  exact congrArg (fun f => Cert.ColSoftmax.colSoftmax f n) (funext fun n' => logits_apply e bw bb n' v)

end Cert.ReferenceIdeal.RefVal

end
-- ==== Proof.Bridge.lean ====
/-
  The two results are one function of the arguments.

  The kernel's result is, entry by entry, the column softmax of the padded logits `∑ k : Fin 256, A (n', k) * B (k, v)`,
  where row `n'` of `A` is the embedding row, a one, and zeros, and column `v` of `B` is row `v` of `B_w`, the bias
  `B_b v`, and zeros. The reference's result is the column softmax of `(∑ k : Fin 200, e (n', k) * B_w (v, k)) + B_b v`.
  The padded dot product IS the dot product plus the bias (on the extended reals `1 * b = b` and `0 * 0 = 0`), and the
  embedding rows are computed by the same operations in both programs, so the two column softmaxes have the same logits.
-/
import proofs.«427122_j2345052144357_3_alg».proof.Proof.KernelBlocks
import proofs.«427122_j2345052144357_3_alg».proof.Proof.KernelHost
import proofs.«427122_j2345052144357_3_alg».proof.Proof.RefValue

noncomputable section

namespace Cert.Proof.Bridge

open Idealize.ShloMosaic Idealize.ShloMosaic.TcCoe Idealize.ShloMosaic.ValueIdx Idealize.SL.Sem Cert.ColSoftmax

/-- Both programs gather, transpose and bias the embedding rows by the same operations: the two terms are one. -/
theorem emb_eq (x : (⟨Cert.KernelIdeal.S4096, .i32⟩ : BufTy).Contents (Elt Ideal))
    (aw : (⟨Cert.KernelIdeal.S200x50257, .f32⟩ : BufTy).Contents (Elt Ideal))
    (ab : (⟨Cert.KernelIdeal.S200, .f32⟩ : BufTy).Contents (Elt Ideal)) :
    Cert.KernelIdeal.HostVal.embK (F := Ideal) x aw ab = Cert.ReferenceIdeal.RefRun.emb (F := Ideal) x aw ab := rfl

open Cert.KernelIdeal Cert.KernelIdeal.Gen in
/-- THE BRIDGE: the reference's term of the kernel's argument arrays is the kernel's result array. -/
theorem result_eq (m : (ℓ : Loc nD τ sig) → Buf (Elt Ideal) ℓ) (c : Dev nD) :
    Cert.ReferenceIdeal.RefRun.out (F := Ideal)
        (Cert.ReferenceIdeal.RefRun.emb (F := Ideal) (m ((c.tc : Thread nD τ).loc main_arg0)) (m ((c.tc : Thread nD τ).loc main_arg1))
          (m ((c.tc : Thread nD τ).loc main_arg2)))
        (m ((c.tc : Thread nD τ).loc main_arg3)) (m ((c.tc : Thread nD τ).loc main_arg4))
      = Cert.KernelIdeal.Blocks.G (V m c main_v11) (V m c main_v23) := by
  funext i
  obtain ⟨n, v, rfl⟩ : ∃ (n : Fin 4096) (v : Fin 50257), i = ix2 n v := ⟨i 0, i 1, eq_ix2 i⟩
  rw [Cert.ReferenceIdeal.RefVal.out_apply, Cert.KernelIdeal.Blocks.G_apply]
  refine congrArg (fun l => colSoftmax l n) (funext fun n' => ?_)
  unfold Cert.KernelIdeal.Blocks.logits
  refine (padded_dot
    (fun k : Fin 200 => Cert.ReferenceIdeal.RefRun.emb (F := Ideal) (m ((c.tc : Thread nD τ).loc main_arg0))
      (m ((c.tc : Thread nD τ).loc main_arg1)) (m ((c.tc : Thread nD τ).loc main_arg2)) (ix2 n' k))
    (fun k : Fin 200 => (m ((c.tc : Thread nD τ).loc main_arg3) : S50257x200.Idx → EReal) (ix2 v k))
    ((m ((c.tc : Thread nD τ).loc main_arg4) : S50257.Idx → EReal) (ix1 v))
    (fun k : Fin 256 => (V m c main_v11 : S4096x256.Idx → EReal) (ix2 n' k))
    (fun k : Fin 256 => (V m c main_v23 : S256x50688.Idx → EReal) (ix2 k ⟨v.val, by omega⟩))
    (fun k => ?_) (fun k => ?_)).symm
  · show (V m c main_v11 : S4096x256.Idx → EReal) (ix2 n' k) = _
    rw [Cert.KernelIdeal.HostVal.V11_apply m c n' k, emb_eq]
    try rfl
  · show (V m c main_v23 : S256x50688.Idx → EReal) (ix2 k ⟨v.val, by omega⟩) = _
    rw [Cert.KernelIdeal.HostVal.V23_apply m c k ⟨v.val, by omega⟩, dif_pos v.isLt]
    try rfl

end Cert.Proof.Bridge

end
-- ==== Proof.lean ====
/-
  The proof of `Cert.Claim`: the kernel (a [4096, 256] × [256, 50688] product taken 512 columns at a time, each column
  normalised by a softmax down its 4096 rows, the bias folded into the product as a row of the padded weights against a
  column of ones) against the reference (`softmax(emb · B_wᵀ + B_b, axis = 0)`).

  The three frames: the two kernels' are the generated frame certificates; the reference's is its run with the result
  dropped. The idealization rewrote nothing, so `preserves` is trivial. The algebraic claim: the kernel's run ends with
  the result array at `Blocks.G` of the two staged arrays (Proof/KernelBlocks.lean: what each grid point writes back,
  and that the blocks cover the result), the reference's run with its result at `RefRun.out` of the embedding rows and
  the weights (Proof/RefRun.lean), and the two are one function of the arguments (Proof/Bridge.lean).
-/
import proofs.«427122_j2345052144357_3_alg».proof.Defs
import proofs.«427122_j2345052144357_3_alg».proof.Proof.Gen.Kernel
import proofs.«427122_j2345052144357_3_alg».proof.Proof.Gen.Kernel.Skeleton
import proofs.«427122_j2345052144357_3_alg».proof.Proof.Gen.Kernel.Launch
import proofs.«427122_j2345052144357_3_alg».proof.Proof.Gen.Kernel.Points
import proofs.«427122_j2345052144357_3_alg».proof.Proof.Gen.Kernel.Frame
import proofs.«427122_j2345052144357_3_alg».proof.Proof.Gen.KernelIdeal
import proofs.«427122_j2345052144357_3_alg».proof.Proof.Gen.KernelIdeal.Skeleton
import proofs.«427122_j2345052144357_3_alg».proof.Proof.Gen.KernelIdeal.Launch
import proofs.«427122_j2345052144357_3_alg».proof.Proof.Gen.KernelIdeal.Points
import proofs.«427122_j2345052144357_3_alg».proof.Proof.Gen.KernelIdeal.Frame
import proofs.«427122_j2345052144357_3_alg».proof.Proof.Gen.KernelIdeal.Value
import proofs.«427122_j2345052144357_3_alg».proof.Proof.Gen.ReferenceIdeal
import proofs.«427122_j2345052144357_3_alg».proof.Proof.Gen.Pre_finite_inputs
import proofs.«427122_j2345052144357_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Run from memories that agree on the arguments, the two idealized programs end with the same result array: the
    kernel's run ends at `Blocks.G` of its staged arrays, the reference's at its own term of the arguments, and the
    bridge says these are equal. -/
theorem algebraic : Cert.algebraic_KernelIdeal_ReferenceIdeal := by
  intro m ρ m' ρ' _ hagree
  refine ⟨fun c => Cert.KernelIdeal.Blocks.G (Cert.KernelIdeal.Gen.V m c Cert.KernelIdeal.main_v11)
    (Cert.KernelIdeal.Gen.V m c Cert.KernelIdeal.main_v23), Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact Cert.Proof.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
